-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩
abbrev S1600x2 : Shape := ⟨2, ![1600, 2]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_
  slices_S1600x4_S1600x2_0_2 : S1600x4.Slices ![0, 2] S1600x2
  bcast_S_S1600x2 : S_.BroadcastsInDim S1600x2 (![] : Fin 0 → Fin S1600x2.rank)
  reducesTo_S1600x2_S_d0_1 : S1600x2.ReducesTo [0, 1] S_

variable [Facts]

def fn_part1 {F : FTy → Type} [FloatOps F] (main_arg2 : IVec S1600 32) (main_arg3 : FVec F S1600x4 .f32) (main_v13 : IVec S_ 1) (main_v15 : IVec S1600 1) (main_c_5 : IVec S_ 32) : IVec S_ 1 :=
  let main_v16 : IVec S1600 32 := broadcastInDim S1600 ![] bcast_S_S1600 main_c_5
  let main_v17 : IVec S1600 1 := cmpi .slt main_arg2 main_v16
  let main_v18 : IVec S1600 1 := andi main_v15 main_v17
  let main_c_6 : IVec S_ 1 := constantI S_ 1 1#1
  let main_v19 : IVec S_ 1 := (fun x v => Host.reduce IntOp.andi x v reducesTo_S1600_S_d0 h_S_) main_v18 main_c_6
  let main_v20 : IVec S_ 1 := andi main_v13 main_v19
  let main_v21 : FVec F S1600x2 .f32 := (extractStridedSlice S1600x2 ![0, 2] · slices_S1600x4_S1600x2_0_2) main_arg3
  let main_cst_7 : FVec F S_ .f32 := constant S_ .f32 0x00000000#32
  let main_v22 : FVec F S1600x2 .f32 := broadcastInDim S1600x2 ![] bcast_S_S1600x2 main_cst_7
  let main_v23 : IVec S1600x2 1 := cmpf .oge main_v21 main_v22
  let main_c_8 : IVec S_ 1 := constantI S_ 1 1#1
  let main_v24 : IVec S_ 1 := (fun x v => Host.reduce IntOp.andi x v reducesTo_S1600x2_S_d0_1 h_S_) main_v23 main_c_8
  let main_v25 : IVec S_ 1 := andi main_v20 main_v24
  main_v25

def fn {F : FTy → Type} [FloatOps F] (main_arg0 : FVec F S16x900x91 .f32) (main_arg1 : FVec F S16x900x4 .f32) (main_arg2 : IVec S1600 32) (main_arg3 : FVec F S1600x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 32 := constantI S_ 32 91#32
  fn_part1 (F := F) main_arg2 main_arg3 main_v13 main_v15 main_c_5
-- ==== Kernel.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S14400x4 : Shape := ⟨2, ![14400, 4]⟩
abbrev S_ : Shape := ⟨0, ![]⟩
abbrev S91 : Shape := ⟨1, ![91]⟩
abbrev S91x1 : Shape := ⟨2, ![91, 1]⟩
abbrev S1x1600 : Shape := ⟨2, ![1, 1600]⟩
abbrev S91x1600 : Shape := ⟨2, ![91, 1600]⟩
abbrev S1600x1 : Shape := ⟨2, ![1600, 1]⟩
abbrev S4x1600 : Shape := ⟨2, ![4, 1600]⟩
abbrev S14400x1600 : Shape := ⟨2, ![14400, 1600]⟩
abbrev S480x91 : Shape := ⟨2, ![480, 91]⟩
abbrev S480x4 : Shape := ⟨2, ![480, 4]⟩
abbrev S480x1600 : Shape := ⟨2, ![480, 1600]⟩
abbrev S480x1 : Shape := ⟨2, ![480, 1]⟩
abbrev S16x900x1600 : Shape := ⟨3, ![16, 900, 1600]⟩

abbrev nBuf : Space → Nat
  | .hbm => 54
  | .vmem => 9
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S14400x91, .f32⟩
  | .hbm, ⟨5, _⟩ => ⟨S14400x4, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1600, .i32⟩
  | .hbm, ⟨10, _⟩ => ⟨S1600, .i32⟩
  | .hbm, ⟨11, _⟩ => ⟨S_, .i32⟩
  | .hbm, ⟨12, _⟩ => ⟨S1600, .i32⟩
  | .hbm, ⟨13, _⟩ => ⟨S1600, .i32⟩
  | .hbm, ⟨14, _⟩ => ⟨S91, .i32⟩
  | .hbm, ⟨15, _⟩ => ⟨S91x1, .i32⟩
  | .hbm, ⟨16, _⟩ => ⟨S1x1600, .i32⟩
  | .hbm, ⟨17, _⟩ => ⟨S91x1600, .i32⟩
  | .hbm, ⟨18, _⟩ => ⟨S91x1600, .i32⟩
  | .hbm, ⟨19, _⟩ => ⟨S91x1600, .i1⟩
  | .hbm, ⟨20, _⟩ => ⟨S91x1600, .bf16⟩
  | .hbm, ⟨21, _⟩ => ⟨S1600x1, .f32⟩
  | .hbm, ⟨22, _⟩ => ⟨S1600, .f32⟩
  | .hbm, ⟨23, _⟩ => ⟨S1600x1, .f32⟩
  | .hbm, ⟨24, _⟩ => ⟨S1600, .f32⟩
  | .hbm, ⟨25, _⟩ => ⟨S1600x1, .f32⟩
  | .hbm, ⟨26, _⟩ => ⟨S1600, .f32⟩
  | .hbm, ⟨27, _⟩ => ⟨S1600x1, .f32⟩
  | .hbm, ⟨28, _⟩ => ⟨S1600, .f32⟩
  | .hbm, ⟨29, _⟩ => ⟨S_, .f32⟩
  | .hbm, ⟨30, _⟩ => ⟨S1600, .f32⟩
  | .hbm, ⟨31, _⟩ => ⟨S1600, .f32⟩
  | .hbm, ⟨32, _⟩ => ⟨S1600, .f32⟩
  | .hbm, ⟨33, _⟩ => ⟨S_, .f32⟩
  | .hbm, ⟨34, _⟩ => ⟨S1600, .f32⟩
  | .hbm, ⟨35, _⟩ => ⟨S1600, .f32⟩
  | .hbm, ⟨36, _⟩ => ⟨S1600, .f32⟩
  | .hbm, ⟨37, _⟩ => ⟨S_, .f32⟩
  | .hbm, ⟨38, _⟩ => ⟨S1600, .f32⟩
  | .hbm, ⟨39, _⟩ => ⟨S1600, .f32⟩
  | .hbm, ⟨40, _⟩ => ⟨S1600, .f32⟩
  | .hbm, ⟨41, _⟩ => ⟨S_, .f32⟩
  | .hbm, ⟨42, _⟩ => ⟨S1600, .f32⟩
  | .hbm, ⟨43, _⟩ => ⟨S1600, .f32⟩
  | .hbm, ⟨44, _⟩ => ⟨S1600, .f32⟩
  | .hbm, ⟨45, _⟩ => ⟨S1600x1, .f32⟩
  | .hbm, ⟨46, _⟩ => ⟨S1600x1, .f32⟩
  | .hbm, ⟨47, _⟩ => ⟨S1600x1, .f32⟩
  | .hbm, ⟨48, _⟩ => ⟨S1600x1, .f32⟩
  | .hbm, ⟨49, _⟩ => ⟨S1600x4, .f32⟩
  | .hbm, ⟨50, _⟩ => ⟨S4x1600, .f32⟩
  | .hbm, ⟨51, _⟩ => ⟨S4x1600, .f32⟩
  | .hbm, ⟨52, _⟩ => ⟨S14400x1600, .f32⟩
  | .hbm, ⟨53, _⟩ => ⟨S16x900x1600, .f32⟩
  | .local _ .vmem, ⟨0, _⟩ => ⟨S480x91, .f32⟩
  | .local _ .vmem, ⟨1, _⟩ => ⟨S480x91, .f32⟩
  | .local _ .vmem, ⟨2, _⟩ => ⟨S480x4, .f32⟩
  | .local _ .vmem, ⟨3, _⟩ => ⟨S480x4, .f32⟩
  | .local _ .vmem, ⟨4, _⟩ => ⟨S4x1600, .f32⟩
  | .local _ .vmem, ⟨5, _⟩ => ⟨S4x1600, .f32⟩
  | .local _ .vmem, ⟨6, _⟩ => ⟨S91x1600, .bf16⟩
  | .local _ .vmem, ⟨7, _⟩ => ⟨S480x1600, .f32⟩
  | .local _ .vmem, ⟨8, _⟩ => ⟨S480x1600, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S91x1600 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S480x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x900x91_S14400x91 : S16x900x91.ShapeCasts S14400x91
  shapeCasts_S16x900x4_S14400x4 : S16x900x4.ShapeCasts S14400x4
  bcast_S_S1600 : S_.BroadcastsInDim S1600 (![] : Fin 0 → Fin S1600.rank)
  bcast_S91_S91x1_0 : S91.BroadcastsInDim S91x1 (![0] : Fin 1 → Fin S91x1.rank)
  bcast_S1600_S1x1600_1 : S1600.BroadcastsInDim S1x1600 (![1] : Fin 1 → Fin S1x1600.rank)
  bcast_S91x1_S91x1600_0_1 : S91x1.BroadcastsInDim S91x1600 (![0, 1] : Fin 2 → Fin S91x1600.rank)
  bcast_S1x1600_S91x1600_0_1 : S1x1600.BroadcastsInDim S91x1600 (![0, 1] : Fin 2 → Fin S91x1600.rank)
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  transposes_S1600x4_S4x1600_1_0 : S1600x4.Transposes [1, 0] S4x1600
  inb_S480x91_S480x91_0_0 : ∀ a, (![0, 0] : Fin 2 → Nat) a + S480x91.size a ≤ S480x91.size a
  h_S480x91 : 0 < S480x91.numel
  shapeCasts_S480x91_S480x91 : S480x91.ShapeCasts S480x91
  inb_S480x4_S480x4_0_0 : ∀ a, (![0, 0] : Fin 2 → Nat) a + S480x4.size a ≤ S480x4.size a
  h_S480x4 : 0 < S480x4.numel
  shapeCasts_S480x4_S480x4 : S480x4.ShapeCasts S480x4
  inb_S4x1600_S4x1600_0_0 : ∀ a, (![0, 0] : Fin 2 → Nat) a + S4x1600.size a ≤ S4x1600.size a
  h_S4x1600 : 0 < S4x1600.numel
  shapeCasts_S4x1600_S4x1600 : S4x1600.ShapeCasts S4x1600
  inb_S91x1600_S91x1600_0_0 : ∀ a, (![0, 0] : Fin 2 → Nat) a + S91x1600.size a ≤ S91x1600.size a
  h_S91x1600 : 0 < S91x1600.numel
  shapeCasts_S91x1600_S91x1600 : S91x1600.ShapeCasts S91x1600
  bitsLt_bf16_f32 : FTy.bits .bf16 < FTy.bits .f32
  slices_S480x4_o0_0_S480x1 : S480x4.Slices ![0, 0] S480x1
  slices_S480x4_o0_1_S480x1 : S480x4.Slices ![0, 1] S480x1
  slices_S480x4_o0_2_S480x1 : S480x4.Slices ![0, 2] S480x1
  slices_S480x4_o0_3_S480x1 : S480x4.Slices ![0, 3] S480x1
  slices_S4x1600_o0_0_S1x1600 : S4x1600.Slices ![0, 0] S1x1600
  slices_S4x1600_o1_0_S1x1600 : S4x1600.Slices ![1, 0] S1x1600
  slices_S4x1600_o2_0_S1x1600 : S4x1600.Slices ![2, 0] S1x1600
  slices_S4x1600_o3_0_S1x1600 : S4x1600.Slices ![3, 0] S1x1600
  broadcasts_S480x1_S480x1600 : S480x1.Broadcasts S480x1600
  broadcasts_S1x1600_S480x1600 : S1x1600.Broadcasts S480x1600
  inb_S480x1600_S480x1600_0_0 : ∀ a, (![0, 0] : Fin 2 → Nat) a + S480x1600.size a ≤ S480x1600.size a
  h_S480x1600 : 0 < S480x1600.numel
  shapeCasts_S14400x1600_S16x900x1600 : S14400x1600.ShapeCasts S16x900x1600
  dot_S480x91_S91x1600_S480x1600_1_0_0_1_n_n_wf : DotDims.WF S480x91 S91x1600 S480x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x91.size a ≤ S14400x91.size a
  hwx0_0 : ∀ i : grid0.Coords, EltTy.bits .f32 = 32 ∨ (Rect.block (s := S14400x91) S480x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S480x4.size a ≤ S14400x4.size a
  hwx0_1 : ∀ i : grid0.Coords, EltTy.bits .f32 = 32 ∨ (Rect.block (s := S14400x4) S480x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x1600.size a ≤ S4x1600.size a
  hwx0_2 : ∀ i : grid0.Coords, EltTy.bits .f32 = 32 ∨ (Rect.block (s := S4x1600) S4x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1600.size a ≤ S4x1600.size a
  hwx0_3 : ∀ i : grid0.Coords, EltTy.bits .f32 = 32 ∨ (Rect.block (s := S4x1600) S4x1600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S91x1600.size a ≤ S91x1600.size a
  hwx0_4 : ∀ i : grid0.Coords, EltTy.bits .bf16 = 32 ∨ (Rect.block (s := S91x1600) S91x1600.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S480x1600.size a ≤ S14400x1600.size a
  hwx0_5 : ∀ i : grid0.Coords, EltTy.bits .f32 = 32 ∨ (Rect.block (s := S14400x1600) S480x1600.size (cc0_transform_5 i) (hinb0_5 i)).WholeWords (EltTy.packing .f32)

variable [Facts₀]

def dot_S480x91_S91x1600_S480x1600_1_0_0_1_n_n : DotDims S480x91 S91x1600 S480x1600 where
  lhsContracting := [1]
  rhsContracting := [0]
  lhsNonContracting := [0]
  rhsNonContracting := [1]
  lhsBatch := []
  rhsBatch := []
  wf := dot_S480x91_S91x1600_S480x1600_1_0_0_1_n_n_wf

abbrev win0_0 : Pipeline.Window sig grid0 :=
  Pipeline.Window.ofSpec (Memref.whole main_v0) S480x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S480x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S4x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S91x1600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S480x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S_ : Shape := ⟨0, ![]⟩
abbrev S14400x4 : Shape := ⟨2, ![14400, 4]⟩
abbrev S1600x1 : Shape := ⟨2, ![1600, 1]⟩
abbrev S14400x1600 : Shape := ⟨2, ![14400, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S14400x1 : Shape := ⟨2, ![14400, 1]⟩
abbrev S14400 : Shape := ⟨1, ![14400]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S1x1600 : Shape := ⟨2, ![1, 1600]⟩
abbrev S16x900x1600 : Shape := ⟨3, ![16, 900, 1600]⟩

abbrev nBuf : Space → Nat
  | .hbm => 211
  | .vmem => 0
  | .smem => 0
  | _ => 0

abbrev hbmTy0_0 (i : Nat) : BufTy := match i % 128 with
  | 0 => ⟨S16x900x91, .f32⟩
  | 1 => ⟨S16x900x4, .f32⟩
  | 2 => ⟨S1600, .i32⟩
  | 3 => ⟨S1600x4, .f32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S_, .f32⟩
  | 15 => ⟨S14400x91, .f32⟩
  | 16 => ⟨S14400x91, .f32⟩
  | 17 => ⟨S_, .f32⟩
  | 18 => ⟨S14400x91, .f32⟩
  | 19 => ⟨S14400x91, .f32⟩
  | 20 => ⟨S14400x91, .f32⟩
  | 21 => ⟨S_, .f32⟩
  | 22 => ⟨S14400x91, .f32⟩
  | 23 => ⟨S14400x91, .f32⟩
  | 24 => ⟨S14400x91, .f32⟩
  | 25 => ⟨S14400x91, .f32⟩
  | 26 => ⟨S14400x91, .f32⟩
  | 27 => ⟨S_, .f32⟩
  | 28 => ⟨S14400x91, .f32⟩
  | 29 => ⟨S14400x91, .f32⟩
  | 30 => ⟨S_, .f32⟩
  | 31 => ⟨S14400x91, .f32⟩
  | 32 => ⟨S14400x91, .f32⟩
  | 33 => ⟨S_, .f32⟩
  | 34 => ⟨S14400x91, .f32⟩
  | 35 => ⟨S14400x91, .f32⟩
  | 36 => ⟨S_, .f32⟩
  | 37 => ⟨S14400x91, .f32⟩
  | 38 => ⟨S14400x91, .f32⟩
  | 39 => ⟨S14400x91, .f32⟩
  | 40 => ⟨S14400x91, .f32⟩
  | 41 => ⟨S14400x91, .f32⟩
  | 42 => ⟨S14400x91, .f32⟩
  | 43 => ⟨S_, .i32⟩
  | 44 => ⟨S1600, .i32⟩
  | 45 => ⟨S1600, .i1⟩
  | 46 => ⟨S_, .i32⟩
  | 47 => ⟨S1600, .i32⟩
  | 48 => ⟨S1600, .i32⟩
  | 49 => ⟨S1600, .i32⟩
  | 50 => ⟨S1600x1, .i32⟩
  | 51 => ⟨S14400x1600, .f32⟩
  | 52 => ⟨S14400x1x4, .f32⟩
  | 53 => ⟨S1x1600x4, .f32⟩
  | 54 => ⟨S14400x1600x4, .f32⟩
  | 55 => ⟨S14400x1600x4, .f32⟩
  | 56 => ⟨S14400x1600x4, .f32⟩
  | 57 => ⟨S14400x1600x4, .f32⟩
  | 58 => ⟨S_, .f32⟩
  | 59 => ⟨S14400x1600, .f32⟩
  | 60 => ⟨S14400x1, .f32⟩
  | 61 => ⟨S14400, .f32⟩
  | 62 => ⟨S14400x1, .f32⟩
  | 63 => ⟨S14400, .f32⟩
  | 64 => ⟨S14400x1, .f32⟩
  | 65 => ⟨S14400, .f32⟩
  | 66 => ⟨S14400x1, .f32⟩
  | 67 => ⟨S14400, .f32⟩
  | 68 => ⟨S_, .f32⟩
  | 69 => ⟨S14400, .f32⟩
  | 70 => ⟨S14400, .f32⟩
  | 71 => ⟨S14400, .f32⟩
  | 72 => ⟨S_, .f32⟩
  | 73 => ⟨S14400, .f32⟩
  | 74 => ⟨S14400, .f32⟩
  | 75 => ⟨S14400, .f32⟩
  | 76 => ⟨S_, .f32⟩
  | 77 => ⟨S14400, .f32⟩
  | 78 => ⟨S14400, .f32⟩
  | 79 => ⟨S14400, .f32⟩
  | 80 => ⟨S_, .f32⟩
  | 81 => ⟨S14400, .f32⟩
  | 82 => ⟨S14400, .f32⟩
  | 83 => ⟨S14400, .f32⟩
  | 84 => ⟨S14400x1, .f32⟩
  | 85 => ⟨S14400x1, .f32⟩
  | 86 => ⟨S14400x1, .f32⟩
  | 87 => ⟨S14400x1, .f32⟩
  | 88 => ⟨S14400x4, .f32⟩
  | 89 => ⟨S1600x1, .f32⟩
  | 90 => ⟨S1600, .f32⟩
  | 91 => ⟨S1600x1, .f32⟩
  | 92 => ⟨S1600, .f32⟩
  | 93 => ⟨S1600x1, .f32⟩
  | 94 => ⟨S1600, .f32⟩
  | 95 => ⟨S1600x1, .f32⟩
  | 96 => ⟨S1600, .f32⟩
  | 97 => ⟨S_, .f32⟩
  | 98 => ⟨S1600, .f32⟩
  | 99 => ⟨S1600, .f32⟩
  | 100 => ⟨S1600, .f32⟩
  | 101 => ⟨S_, .f32⟩
  | 102 => ⟨S1600, .f32⟩
  | 103 => ⟨S1600, .f32⟩
  | 104 => ⟨S1600, .f32⟩
  | 105 => ⟨S_, .f32⟩
  | 106 => ⟨S1600, .f32⟩
  | 107 => ⟨S1600, .f32⟩
  | 108 => ⟨S1600, .f32⟩
  | 109 => ⟨S_, .f32⟩
  | 110 => ⟨S1600, .f32⟩
  | 111 => ⟨S1600, .f32⟩
  | 112 => ⟨S1600, .f32⟩
  | 113 => ⟨S1600x1, .f32⟩
  | 114 => ⟨S1600x1, .f32⟩
  | 115 => ⟨S1600x1, .f32⟩
  | 116 => ⟨S1600x1, .f32⟩
  | 117 => ⟨S1600x4, .f32⟩
  | 118 => ⟨S14400x1, .f32⟩
  | 119 => ⟨S14400, .f32⟩
  | 120 => ⟨S14400x1, .f32⟩
  | 121 => ⟨S14400, .f32⟩
  | 122 => ⟨S14400, .f32⟩
  | 123 => ⟨S14400x1, .f32⟩
  | 124 => ⟨S14400, .f32⟩
  | 125 => ⟨S14400x1, .f32⟩
  | 126 => ⟨S14400, .f32⟩
  | 127 => ⟨S14400, .f32⟩
  | _ => ⟨S16x900x91, .f32⟩

abbrev hbmTy0_1 (i : Nat) : BufTy := match i % 128 with
  | 0 => ⟨S14400, .f32⟩
  | 1 => ⟨S1600x1, .f32⟩
  | 2 => ⟨S1600, .f32⟩
  | 3 => ⟨S1600x1, .f32⟩
  | 4 => ⟨S1600, .f32⟩
  | 5 => ⟨S1600, .f32⟩
  | 6 => ⟨S1600x1, .f32⟩
  | 7 => ⟨S1600, .f32⟩
  | 8 => ⟨S1600x1, .f32⟩
  | 9 => ⟨S1600, .f32⟩
  | 10 => ⟨S1600, .f32⟩
  | 11 => ⟨S1600, .f32⟩
  | 12 => ⟨S14400x2, .f32⟩
  | 13 => ⟨S14400x1x2, .f32⟩
  | 14 => ⟨S1600x2, .f32⟩
  | 15 => ⟨S1x1600x2, .f32⟩
  | 16 => ⟨S14400x1600x2, .f32⟩
  | 17 => ⟨S14400x1600x2, .f32⟩
  | 18 => ⟨S14400x1600x2, .f32⟩
  | 19 => ⟨S14400x2, .f32⟩
  | 20 => ⟨S14400x1x2, .f32⟩
  | 21 => ⟨S1600x2, .f32⟩
  | 22 => ⟨S1x1600x2, .f32⟩
  | 23 => ⟨S14400x1600x2, .f32⟩
  | 24 => ⟨S14400x1600x2, .f32⟩
  | 25 => ⟨S14400x1600x2, .f32⟩
  | 26 => ⟨S14400x1600x2, .f32⟩
  | 27 => ⟨S_, .f32⟩
  | 28 => ⟨S_, .f32⟩
  | 29 => ⟨S14400x1600x2, .f32⟩
  | 30 => ⟨S14400x1600x2, .f32⟩
  | 31 => ⟨S14400x1600x1, .f32⟩
  | 32 => ⟨S14400x1600, .f32⟩
  | 33 => ⟨S14400x1600x1, .f32⟩
  | 34 => ⟨S14400x1600, .f32⟩
  | 35 => ⟨S14400x1600, .f32⟩
  | 36 => ⟨S14400x1, .f32⟩
  | 37 => ⟨S1x1600, .f32⟩
  | 38 => ⟨S14400x1600, .f32⟩
  | 39 => ⟨S14400x1600, .f32⟩
  | 40 => ⟨S14400x1600, .f32⟩
  | 41 => ⟨S14400x1600, .f32⟩
  | 42 => ⟨S14400x1600, .f32⟩
  | 43 => ⟨S14400x2, .f32⟩
  | 44 => ⟨S14400x1x2, .f32⟩
  | 45 => ⟨S1600x2, .f32⟩
  | 46 => ⟨S1x1600x2, .f32⟩
  | 47 => ⟨S14400x1600x2, .f32⟩
  | 48 => ⟨S14400x1600x2, .f32⟩
  | 49 => ⟨S14400x1600x2, .f32⟩
  | 50 => ⟨S14400x2, .f32⟩
  | 51 => ⟨S14400x1x2, .f32⟩
  | 52 => ⟨S1600x2, .f32⟩
  | 53 => ⟨S1x1600x2, .f32⟩
  | 54 => ⟨S14400x1600x2, .f32⟩
  | 55 => ⟨S14400x1600x2, .f32⟩
  | 56 => ⟨S14400x1600x2, .f32⟩
  | 57 => ⟨S14400x1600x2, .f32⟩
  | 58 => ⟨S_, .f32⟩
  | 59 => ⟨S_, .f32⟩
  | 60 => ⟨S14400x1600x2, .f32⟩
  | 61 => ⟨S14400x1600x2, .f32⟩
  | 62 => ⟨S14400x1600x1, .f32⟩
  | 63 => ⟨S14400x1600, .f32⟩
  | 64 => ⟨S14400x1600x1, .f32⟩
  | 65 => ⟨S14400x1600, .f32⟩
  | 66 => ⟨S14400x1600, .f32⟩
  | 67 => ⟨S14400x1600, .f32⟩
  | 68 => ⟨S14400x1600, .f32⟩
  | 69 => ⟨S14400x1600, .f32⟩
  | 70 => ⟨S14400x1600, .f32⟩
  | 71 => ⟨S_, .f32⟩
  | 72 => ⟨S14400x1600, .f32⟩
  | 73 => ⟨S14400x1600, .f32⟩
  | 74 => ⟨S_, .f32⟩
  | 75 => ⟨S14400x1600, .f32⟩
  | 76 => ⟨S14400x1600, .f32⟩
  | 77 => ⟨S14400x1600, .f32⟩
  | 78 => ⟨S_, .f32⟩
  | 79 => ⟨S14400x1600, .f32⟩
  | 80 => ⟨S14400x1600, .f32⟩
  | 81 => ⟨S14400x1600, .f32⟩
  | 82 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_13 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_14 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_15 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_16 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_18 : Ref sig .tc := ⟨.hbm, 155, rfl⟩
abbrev main_call0_v0 : Ref sig .tc := ⟨.hbm, 156, rfl⟩
abbrev main_call0_v1 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_cst_19 : Ref sig .tc := ⟨.hbm, 186, rfl⟩
abbrev main_call1_v0 : Ref sig .tc := ⟨.hbm, 187, rfl⟩
abbrev main_call1_v1 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_cst_20 : Ref sig .tc := ⟨.hbm, 199, rfl⟩
abbrev main_v169 : Ref sig .tc := ⟨.hbm, 200, rfl⟩
abbrev main_v170 : Ref sig .tc := ⟨.hbm, 201, rfl⟩
abbrev main_cst_21 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_22 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  bcast_S_S1600 : S_.BroadcastsInDim S1600 (![] : Fin 0 → Fin S1600.rank)
  bcast_S1600_S1600x1_0 : S1600.BroadcastsInDim S1600x1 (![0] : Fin 1 → Fin S1600x1.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S_S14400x1600 : S_.BroadcastsInDim S14400x1600 (![] : Fin 0 → Fin S14400x1600.rank)
  shapeCasts_S14400x1600_S16x900x1600 : S14400x1600.ShapeCasts S16x900x1600
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.KBaseBits.lean ====
/-
  The kernel's program around its one region, at any reading of the floats: what the region finds in each
  buffer (the host operations before it applied to the launch contents), each window's block at a grid point,
  and the value the body stores into its output block as ONE function of the five blocks it loads.
-/
import proofs.«417686_j11175504904384_3_alg».proof.Proof.Gen.Kernel.Launch
import proofs.«417686_j11175504904384_3_alg».proof.Proof.Gen.Kernel.Skeleton
import proofs.«417686_j11175504904384_3_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- Core c's TensorCore buffers when the region is entered: the three stretches of host operations before it
    (the reshapes and two constants; the label clamp; the 0/1 class table, the target corners, the transposes)
    applied to the launch contents. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take the whole block -/

abbrev r0_0 : Rect S480x91 := Rect.unit (s := S480x91) ![0, 0] S480x91.size inb_S480x91_S480x91_0_0
abbrev r0_1 : Rect S480x4 := Rect.unit (s := S480x4) ![0, 0] S480x4.size inb_S480x4_S480x4_0_0
abbrev r0_2 : Rect S4x1600 := Rect.unit (s := S4x1600) ![0, 0] S4x1600.size inb_S4x1600_S4x1600_0_0
abbrev r0_4 : Rect S91x1600 := Rect.unit (s := S91x1600) ![0, 0] S91x1600.size inb_S91x1600_S91x1600_0_0
abbrev r0_5 : Rect S480x1600 := Rect.unit (s := S480x1600) ![0, 0] S480x1600.size inb_S480x1600_S480x1600_0_0

/-- The stored value from the five loaded vectors: logits v0, predicted boxes v2, target boxes v4 (centre form,
    one row per field) and v6 (corner form), the 0/1 class table v8. -/
def body (v0 : Vec F S480x91 .f32) (v2 : Vec F S480x4 .f32) (v4 : Vec F S4x1600 .f32) (v6 : Vec F S4x1600 .f32)
    (v8 : Vec F S91x1600 .bf16) : FVec F S480x1600 .f32 :=
  k0_pay1 (k0_pay5 v0 v8) (k0_pay8 (k0_pay2 v2)) (k0_pay9 (k0_pay2 v2)) (k0_pay10 (k0_pay2 v2))
    (k0_pay11 (k0_pay3 v4)) (k0_pay12 (k0_pay3 v4)) (k0_pay13 (k0_pay4 v6))
    (k0_pay14 (k0_pay2 v2) (k0_pay3 v4) (k0_pay6 v2)) (k0_pay15 (k0_pay2 v2)) (k0_pay16 (k0_pay3 v4))
    (k0_pay17 (k0_pay2 v2) (k0_pay4 v6) (k0_pay6 v2)) (k0_pay18 (k0_pay2 v2) (k0_pay4 v6) (k0_pay6 v2))
    (k0_pay19 (k0_pay2 v2)) (k0_pay20 (k0_pay4 v6))

/-- The output window's staging buffer after the body, from the five input blocks: its one store, which takes
    the whole block. -/
def out0_5 (x0 : Vec F S480x91 .f32) (x1 : Vec F S480x4 .f32) (x2 : Vec F S4x1600 .f32) (x3 : Vec F S4x1600 .f32)
    (x4 : Vec F S91x1600 .bf16) : Vec F S480x1600 .f32 :=
  View.canon [⟨r0_5, body (View.ld x0 r0_0) (View.ld x1 r0_1) (View.ld x2 r0_2) (View.ld x3 r0_2) (View.ld x4 r0_4)⟩]

end Cert.Kernel.Hand

end
-- ==== Proof.KFrameBits.lean ====
/-
  The frame of the kernel's program, at any float instance: every weakly fair execution of @main
  terminates without a fault; the four argument arrays end as launched; and each array of the one pipeline ends
  at what the proof data below computes: an input array as the region found it, the output array overwritten
  block by block by the body's one store.

  @main is three stretches of host operations (the reshapes and the two clamp bounds; the label clamp; the 0/1
  class table, the target corners and the two transposes), the region on its 30 grid points, and one reshape of
  the region's result. No host operation writes an argument array, and the reshape after the region writes no
  array of the pipeline; the body loads its five input blocks whole, reads the output block once without using
  what it read, and stores the whole output block once.
-/
import proofs.«417686_j11175504904384_3_alg».proof.Proof.KBaseBits
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The proof data of the one pipeline -/

/-- On core c: each array as the region finds it; after the body at point t every input buffer still at its
    block and the output buffer at the stored value of the five input blocks; the invariant is the untouched
    scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The arrays of the proof data are the contents at the region's entry (read off the definition, so that the
    long fold over the host operations is never opened). -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

/-! ## @main around the region -/

/-- No host operation of the three stretches before the region, nor the reshape after it, allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, and the reshape: run up to the region it leaves the buffers at V,
    and what remains is the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The one list of operations after the region. -/
theorem tail_eq {ops : List (HloOp τ sig (Elt F))} (h : ops ∈ ([hostOps1] : List (List (HloOp τ sig (Elt F))))) : ops = hostOps1 := by
  simpa only [List.mem_cons, List.mem_nil_iff, or_false] using h

/-- The reshape after the region touches unscoped TensorCore buffers only; with nothing prefetched these are the
    pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  rw [tail_eq hops] at hop
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  rw [tail_eq hops] at hop
  exact (List.forall_iff_forall_mem.mp hostOps1_fresh) op hop

/-- It writes its own result main_v38, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [tail_eq hops] at hop
  simp only [hostOps1, List.mem_cons, List.mem_nil_iff, or_false] at hop
  subst hop
  rw [StableHlo.reshape_writes, Finset.mem_singleton]
  fin_cases w <;> exact StableHlo.devRef_ne_of_ne (by decide)

/-! ## The argument arrays -/

/-- Every buffer a host operation before the region writes: each operation's one result. -/
def written : List (Ref sig .tc) :=
  [main_v0, main_v1, main_c, main_c_0,
   main_call0_v0, main_call0_v1, main_call0_v2, main_call0_v3, main_call0_v4, main_v2,
   main_v3, main_v4, main_v5, main_v6, main_v7, main_v8, main_v9, main_v10, main_v11, main_v12, main_v13, main_v14,
   main_v15, main_v16, main_v17, main_cst, main_v18, main_v19, main_v20, main_cst_1, main_v21, main_v22, main_v23,
   main_cst_2, main_v24, main_v25, main_v26, main_cst_3, main_v27, main_v28, main_v29, main_v30, main_v31, main_v32,
   main_v33, main_v34, main_v35, main_v36]

/-- The three stretches write nothing outside that list. -/
theorem prefix_writes : (List.flatten [hostOps0, hostOps0_1, hostOps0_2] : List (HloOp τ sig (Elt F))).Forall fun op =>
    op.writes ⊆ (written.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A buffer outside the list enters the region as launched. -/
theorem V_of_unwritten (c : Dev nD) (b : Ref sig .tc) (hb : b ∉ written) : V m c b = m ((c : Thread nD τ).loc b) :=
  StableHlo.after_of_writes_sub _ _ prefix_writes hb

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)
theorem V_main_arg3 (c : Dev nD) : V m c main_arg3 = m ((c : Thread nD τ).loc main_arg3) := V_of_unwritten m c _ (by decide)

/-- A buffer that is neither the last reshape's result nor an array of the pipeline ends as the region found it,
    whatever the proof data. -/
theorem W_of_bypass (dats : (p : Fin _) → (c : Dev nD) → Dat τ (Elt F) Unit ℕ (UR sig nD τ) ℕ (cfgs p) c) (c : Dev nD)
    (b : Ref sig .tc) (h38 : b ≠ main_v38) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      intro op hop
      simp only [hostOps1, List.flatten_cons, List.flatten_nil, List.append_nil, List.mem_cons, List.mem_nil_iff, or_false] at hop
      subst hop
      rw [StableHlo.reshape_writes, Finset.mem_singleton]
      exact StableHlo.devRef_ne_of_ne h38),
    Pipeline.withArrays_of_ne _ c (V0 m c) _ b harr]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)

/-! ## What the body finds in the input buffers -/

/-- An input window's current buffer holds the window's block at every point, whether the point fetches it or not:
    where it is not fetched the block index has not moved since the last fetch and the body left the block in place.
    No window is cut or idle, so a fetch fills the whole buffer with the block. Windows 0 and 1 are fetched at every
    point, windows 2, 3 and 4 at the first point only. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body's triple -/

/-- The one store takes the whole output block, so it covers it. -/
theorem cover0_5 (p0 : Vec F S480x1600 .f32) (y : S480x1600.Idx) :
    ∃ pc ∈ ([⟨r0_5, p0⟩] : List (View.Piece (Elt F) S480x1600 .f32)), y ∈ pc.1.set :=
  View.cover_of_tiled ([⟨r0_5, p0⟩] : List (View.Piece (Elt F) S480x1600 .f32)) S480x1600.size (by rfl) y

set_option maxHeartbeats 1000000 in
/-- The kernel function on six whole buffers, the five inputs at contents x0 .. x4 and the output at any contents:
    it loads the five inputs whole, computes, reads the output buffer once (the value is not used, so any contents
    do) and stores the whole output block; the inputs are left as they were and the output at out0_5 of them. -/
theorem sound_kernel (c : Dev nD) (E : Set ℕ) (i : grid0.Coords)
    (arg1 : Memref sig .tc .vmem S480x91 .f32) (harg1 : arg1.IsWhole) (arg2 : Memref sig .tc .vmem S480x4 .f32) (harg2 : arg2.IsWhole)
    (arg3 : Memref sig .tc .vmem S4x1600 .f32) (harg3 : arg3.IsWhole) (arg4 : Memref sig .tc .vmem S4x1600 .f32) (harg4 : arg4.IsWhole)
    (arg5 : Memref sig .tc .vmem S91x1600 .bf16) (harg5 : arg5.IsWhole) (arg6 : Memref sig .tc .vmem S480x1600 .f32) (harg6 : arg6.IsWhole)
    (x0 : Vec F S480x91 .f32) (x1 : Vec F S480x4 .f32) (x2 x3 : Vec F S4x1600 .f32) (x4 : Vec F S91x1600 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation -/

/-- What the pipeline hands the body at point t: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it takes back: the same with every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five input buffers hold their blocks, the output buffer something, so the kernel
    function's triple applies; the invariant and the dues are not read and are the same before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's obligation at every point is that triple, the six windows written out. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; at the end
    every array of the pipeline holds what the library computes from the proof data, and every other unscoped
    buffer what the reshape after the region leaves of the region's entry contents. -/
theorem run_main (ρ : Dev nD → PrngReg) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is unscoped and no window stages it, so the run's post reads it through its second clause. -/
theorem arg_bypass {b : Ref sig .tc} (hs : b.isScoped = false) (ha : ∀ w, (spec0 w).arr.view.ref ≠ b) :
    b ∈ Pipeline.restRefs sig (cfgs 0).spec := Pipeline.mem_restRefs_of b hs ha

/-- The frame: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
    ⟨((h c).2 main_arg0 (arg_bypass (by decide) (by decide))).trans (W_main_arg0 m (dats m) c),
     ((h c).2 main_arg1 (arg_bypass (by decide) (by decide))).trans (W_main_arg1 m (dats m) c),
     ((h c).2 main_arg2 (arg_bypass (by decide) (by decide))).trans (W_main_arg2 m (dats m) c),
     ((h c).2 main_arg3 (arg_bypass (by decide) (by decide))).trans (W_main_arg3 m (dats m) c)⟩) (run_main m ρ)

end Cert.Kernel.Hand

end
-- ==== Proof.KBase.lean ====
/-
  The kernel's program around its one region, at any reading of the floats: what the region finds in each
  buffer (the host operations before it applied to the launch contents), each window's block at a grid point,
  and the value the body stores into its output block as ONE function of the five blocks it loads.
-/
import proofs.«417686_j11175504904384_3_alg».proof.Proof.Gen.KernelIdeal.Launch
import proofs.«417686_j11175504904384_3_alg».proof.Proof.Gen.KernelIdeal.Skeleton
import proofs.«417686_j11175504904384_3_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- Core c's TensorCore buffers when the region is entered: the three stretches of host operations before it
    (the reshapes and two constants; the label clamp; the 0/1 class table, the target corners, the transposes)
    applied to the launch contents. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses: every load and the one store take the whole block -/

abbrev r0_0 : Rect S480x91 := Rect.unit (s := S480x91) ![0, 0] S480x91.size inb_S480x91_S480x91_0_0
abbrev r0_1 : Rect S480x4 := Rect.unit (s := S480x4) ![0, 0] S480x4.size inb_S480x4_S480x4_0_0
abbrev r0_2 : Rect S4x1600 := Rect.unit (s := S4x1600) ![0, 0] S4x1600.size inb_S4x1600_S4x1600_0_0
abbrev r0_4 : Rect S91x1600 := Rect.unit (s := S91x1600) ![0, 0] S91x1600.size inb_S91x1600_S91x1600_0_0
abbrev r0_5 : Rect S480x1600 := Rect.unit (s := S480x1600) ![0, 0] S480x1600.size inb_S480x1600_S480x1600_0_0

/-- The stored value from the five loaded vectors: logits v0, predicted boxes v2, target boxes v4 (centre form,
    one row per field) and v6 (corner form), the 0/1 class table v8. -/
def body (v0 : Vec F S480x91 .f32) (v2 : Vec F S480x4 .f32) (v4 : Vec F S4x1600 .f32) (v6 : Vec F S4x1600 .f32)
    (v8 : Vec F S91x1600 .bf16) : FVec F S480x1600 .f32 :=
  k0_pay1 (k0_pay5 v0 v8) (k0_pay8 (k0_pay2 v2)) (k0_pay9 (k0_pay2 v2)) (k0_pay10 (k0_pay2 v2))
    (k0_pay11 (k0_pay3 v4)) (k0_pay12 (k0_pay3 v4)) (k0_pay13 (k0_pay4 v6))
    (k0_pay14 (k0_pay2 v2) (k0_pay3 v4) (k0_pay6 v2)) (k0_pay15 (k0_pay2 v2)) (k0_pay16 (k0_pay3 v4))
    (k0_pay17 (k0_pay2 v2) (k0_pay4 v6) (k0_pay6 v2)) (k0_pay18 (k0_pay2 v2) (k0_pay4 v6) (k0_pay6 v2))
    (k0_pay19 (k0_pay2 v2)) (k0_pay20 (k0_pay4 v6))

/-- The output window's staging buffer after the body, from the five input blocks: its one store, which takes
    the whole block. -/
def out0_5 (x0 : Vec F S480x91 .f32) (x1 : Vec F S480x4 .f32) (x2 : Vec F S4x1600 .f32) (x3 : Vec F S4x1600 .f32)
    (x4 : Vec F S91x1600 .bf16) : Vec F S480x1600 .f32 :=
  View.canon [⟨r0_5, body (View.ld x0 r0_0) (View.ld x1 r0_1) (View.ld x2 r0_2) (View.ld x3 r0_2) (View.ld x4 r0_4)⟩]

end Cert.KernelIdeal.Hand

end
-- ==== Proof.KFrame.lean ====
/-
  The frame of the kernel's program, at any float instance: every weakly fair execution of @main
  terminates without a fault; the four argument arrays end as launched; and each array of the one pipeline ends
  at what the proof data below computes: an input array as the region found it, the output array overwritten
  block by block by the body's one store.

  @main is three stretches of host operations (the reshapes and the two clamp bounds; the label clamp; the 0/1
  class table, the target corners and the two transposes), the region on its 30 grid points, and one reshape of
  the region's result. No host operation writes an argument array, and the reshape after the region writes no
  array of the pipeline; the body loads its five input blocks whole, reads the output block once without using
  what it read, and stores the whole output block once.
-/
import proofs.«417686_j11175504904384_3_alg».proof.Proof.KBase
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The proof data of the one pipeline -/

/-- On core c: each array as the region finds it; after the body at point t every input buffer still at its
    block and the output buffer at the stored value of the five input blocks; the invariant is the untouched
    scoped rest and generator register; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The arrays of the proof data are the contents at the region's entry (read off the definition, so that the
    long fold over the host operations is never opened). -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = out0_5 (iblk m c 0 t) (iblk m c 1 t) (iblk m c 2 t) (iblk m c 3 t) (iblk m c 4 t) := by dsimp only [dats]

/-! ## @main around the region -/

/-- No host operation of the three stretches before the region, nor the reshape after it, allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the three stretches, the region, and the reshape: run up to the region it leaves the buffers at V,
    and what remains is the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The one list of operations after the region. -/
theorem tail_eq {ops : List (HloOp τ sig (Elt F))} (h : ops ∈ ([hostOps1] : List (List (HloOp τ sig (Elt F))))) : ops = hostOps1 := by
  simpa only [List.mem_cons, List.mem_nil_iff, or_false] using h

/-- The reshape after the region touches unscoped TensorCore buffers only; with nothing prefetched these are the
    pipeline's arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  intro ops hops op hop
  rw [Pipeline.tailRefs_none spec0 launch0.win.arr_unscoped]
  rw [tail_eq hops] at hop
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  rw [tail_eq hops] at hop
  exact (List.forall_iff_forall_mem.mp hostOps1_fresh) op hop

/-- It writes its own result main_v38, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  rw [tail_eq hops] at hop
  simp only [hostOps1, List.mem_cons, List.mem_nil_iff, or_false] at hop
  subst hop
  rw [StableHlo.reshape_writes, Finset.mem_singleton]
  fin_cases w <;> exact StableHlo.devRef_ne_of_ne (by decide)

/-! ## The argument arrays -/

/-- Every buffer a host operation before the region writes: each operation's one result. -/
def written : List (Ref sig .tc) :=
  [main_v0, main_v1, main_c, main_c_0,
   main_call0_v0, main_call0_v1, main_call0_v2, main_call0_v3, main_call0_v4, main_v2,
   main_v3, main_v4, main_v5, main_v6, main_v7, main_v8, main_v9, main_v10, main_v11, main_v12, main_v13, main_v14,
   main_v15, main_v16, main_v17, main_cst, main_v18, main_v19, main_v20, main_cst_1, main_v21, main_v22, main_v23,
   main_cst_2, main_v24, main_v25, main_v26, main_cst_3, main_v27, main_v28, main_v29, main_v30, main_v31, main_v32,
   main_v33, main_v34, main_v35, main_v36]

/-- The three stretches write nothing outside that list. -/
theorem prefix_writes : (List.flatten [hostOps0, hostOps0_1, hostOps0_2] : List (HloOp τ sig (Elt F))).Forall fun op =>
    op.writes ⊆ (written.map (Proc.devRef (τ := τ) .tc)).toFinset := by
  simp only [hostOps0, hostOps0_1, hostOps0_2, List.flatten_cons, List.flatten_nil, List.append_nil, List.cons_append,
    List.nil_append, List.Forall, StableHlo.nullary_writes, StableHlo.unary_writes, StableHlo.binary_writes,
    StableHlo.reshape_writes, StableHlo.nary_writes, Finset.singleton_subset_iff, List.mem_toFinset]
  repeat' apply And.intro
  all_goals exact List.mem_map_of_mem (by decide)

/-- A buffer outside the list enters the region as launched. -/
theorem V_of_unwritten (c : Dev nD) (b : Ref sig .tc) (hb : b ∉ written) : V m c b = m ((c : Thread nD τ).loc b) :=
  StableHlo.after_of_writes_sub _ _ prefix_writes hb

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)
theorem V_main_arg3 (c : Dev nD) : V m c main_arg3 = m ((c : Thread nD τ).loc main_arg3) := V_of_unwritten m c _ (by decide)

/-- A buffer that is neither the last reshape's result nor an array of the pipeline ends as the region found it,
    whatever the proof data. -/
theorem W_of_bypass (dats : (p : Fin _) → (c : Dev nD) → Dat τ (Elt F) Unit ℕ (UR sig nD τ) ℕ (cfgs p) c) (c : Dev nD)
    (b : Ref sig .tc) (h38 : b ≠ main_v38) (harr : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (by
      intro op hop
      simp only [hostOps1, List.flatten_cons, List.flatten_nil, List.append_nil, List.mem_cons, List.mem_nil_iff, or_false] at hop
      subst hop
      rw [StableHlo.reshape_writes, Finset.mem_singleton]
      exact StableHlo.devRef_ne_of_ne h38),
    Pipeline.withArrays_of_ne _ c (V0 m c) _ b harr]

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_bypass m dats c main_arg0 (by decide) (by decide)).trans (V_main_arg0 m c)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  (W_of_bypass m dats c main_arg1 (by decide) (by decide)).trans (V_main_arg1 m c)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  (W_of_bypass m dats c main_arg2 (by decide) (by decide)).trans (V_main_arg2 m c)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  (W_of_bypass m dats c main_arg3 (by decide) (by decide)).trans (V_main_arg3 m c)

/-! ## What the body finds in the input buffers -/

/-- An input window's current buffer holds the window's block at every point, whether the point fetches it or not:
    where it is not fetched the block index has not moved since the last fetch and the body left the block in place.
    No window is cut or idle, so a fetch fills the whole buffer with the block. Windows 0 and 1 are fetched at every
    point, windows 2, 3 and 4 at the first point only. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The body's triple -/

/-- The one store takes the whole output block, so it covers it. -/
theorem cover0_5 (p0 : Vec F S480x1600 .f32) (y : S480x1600.Idx) :
    ∃ pc ∈ ([⟨r0_5, p0⟩] : List (View.Piece (Elt F) S480x1600 .f32)), y ∈ pc.1.set :=
  View.cover_of_tiled ([⟨r0_5, p0⟩] : List (View.Piece (Elt F) S480x1600 .f32)) S480x1600.size (by rfl) y

set_option maxHeartbeats 1000000 in
/-- The kernel function on six whole buffers, the five inputs at contents x0 .. x4 and the output at any contents:
    it loads the five inputs whole, computes, reads the output buffer once (the value is not used, so any contents
    do) and stores the whole output block; the inputs are left as they were and the output at out0_5 of them. -/
theorem sound_kernel (c : Dev nD) (E : Set ℕ) (i : grid0.Coords)
    (arg1 : Memref sig .tc .vmem S480x91 .f32) (harg1 : arg1.IsWhole) (arg2 : Memref sig .tc .vmem S480x4 .f32) (harg2 : arg2.IsWhole)
    (arg3 : Memref sig .tc .vmem S4x1600 .f32) (harg3 : arg3.IsWhole) (arg4 : Memref sig .tc .vmem S4x1600 .f32) (harg4 : arg4.IsWhole)
    (arg5 : Memref sig .tc .vmem S91x1600 .bf16) (harg5 : arg5.IsWhole) (arg6 : Memref sig .tc .vmem S480x1600 .f32) (harg6 : arg6.IsWhole)
    (x0 : Vec F S480x91 .f32) (x1 : Vec F S480x4 .f32) (x2 x3 : Vec F S4x1600 .f32) (x4 : Vec F S91x1600 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E
          (cc0__cost_kernel i arg1 harg1 arg2 harg2 arg3 harg3 arg4 harg4 arg5 harg5 arg6 harg6) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The body obligation -/

/-- What the pipeline hands the body at point t: the invariant, the core's dues, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it takes back: the same with every buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the five input buffers hold their blocks, the output buffer something, so the kernel
    function's triple applies; the invariant and the dues are not read and are the same before and after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's obligation at every point is that triple, the six windows written out. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates without a fault; at the end
    every array of the pipeline holds what the library computes from the proof data, and every other unscoped
    buffer what the reshape after the region leaves of the region's entry contents. -/
theorem run_main (ρ : Dev nD → PrngReg) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An argument array is unscoped and no window stages it, so the run's post reads it through its second clause. -/
theorem arg_bypass {b : Ref sig .tc} (hs : b.isScoped = false) (ha : ∀ w, (spec0 w).arr.view.ref ≠ b) :
    b ∈ Pipeline.restRefs sig (cfgs 0).spec := Pipeline.mem_restRefs_of b hs ha

/-- The frame: the four argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)
      ∧ r.2.mem ((c.tc : Thread nD τ).loc main_arg2) = m ((c.tc : Thread nD τ).loc main_arg2) ∧ r.2.mem ((c.tc : Thread nD τ).loc main_arg3) = m ((c.tc : Thread nD τ).loc main_arg3)) :=
  (θ_run defs _ _).mono (fun _ h c =>
    ⟨((h c).2 main_arg0 (arg_bypass (by decide) (by decide))).trans (W_main_arg0 m (dats m) c),
     ((h c).2 main_arg1 (arg_bypass (by decide) (by decide))).trans (W_main_arg1 m (dats m) c),
     ((h c).2 main_arg2 (arg_bypass (by decide) (by decide))).trans (W_main_arg2 m (dats m) c),
     ((h c).2 main_arg3 (arg_bypass (by decide) (by decide))).trans (W_main_arg3 m (dats m) c)⟩) (run_main m ρ)

end Cert.KernelIdeal.Hand

end
-- ==== Proof.CostSpec.lean ====
/-
  The matching cost of one (query box, target box) pair over the extended reals, written twice: as the
  kernel computes it and as the reference computes it, and the two whole-array results built from them.

  One pair has a predicted box (cx, cy, w, h), a target box (tcx, tcy, tw, th) and a class term cls:
    cost = L1 distance of the two boxes + cls - GIoU of the two boxes as corner boxes.
  The two spellings differ in three places:
   * the squares of the focal term are products in one and powers with exponent 2 in the other;
   * the box areas are w * h in one and (right - left) * (bottom - top) of the corner box in the other;
   * the enclosing box's sides are (w + tw) - overlap in one (the hull identity
     max a b + min a b = a + b, unclipped) and clip (max of the far corners - min of the near corners) in the
     other, and GIoU is (iou - 1) + union / enclosing in one and iou - (enclosing - union) / enclosing in the other.
  The class term is a sum over the 91 classes against a 0/1 column in one and one selected class in the other.
-/
import Idealize.ShloMosaic.PureOps.Ideal
import Idealize.ShloMosaic.Lib.ValueIdx

noncomputable section

open scoped BigOperators

namespace Cert.CostSpec

open Idealize.ShloMosaic Idealize.ShloMosaic.ValueIdx

/-! ## The literals, as the words both programs print -/

abbrev k0 : EReal := Ideal.ofBits .f32 0x00000000#32      -- 0
abbrev k1 : EReal := Ideal.ofBits .f32 0x3F800000#32      -- 1
abbrev k2 : EReal := Ideal.ofBits .f32 0x40000000#32      -- 2
abbrev khalf : EReal := Ideal.ofBits .f32 0x3F000000#32   -- 1/2
abbrev kquarter : EReal := Ideal.ofBits .f32 0x3E800000#32 -- 1/4
abbrev k34 : EReal := Ideal.ofBits .f32 0x3F400000#32     -- 3/4
abbrev keps : EReal := Ideal.ofBits .f32 0x322BCC77#32    -- the f32 nearest 1e-8

/-! ## The focal class feature of one logit -/

/-- With p the logistic of x: (1/4 (1-p)(1-p)) (0 - log (p + eps)) - (3/4 (p p)) (0 - log1p ((0 - p) + eps)). -/
def featK (x : EReal) : EReal :=
  (kquarter * ((k1 - Ideal.logistic x) * (k1 - Ideal.logistic x))) * (k0 - Ideal.log (Ideal.logistic x + keps))
    - (k34 * (Ideal.logistic x * Ideal.logistic x)) * (k0 - Ideal.log1p ((k0 - Ideal.logistic x) + keps))

/-- The same with p = 1 / (1 + exp (-x)) written out, powers with exponent 2 and negations. -/
def featR (x : EReal) : EReal :=
  (kquarter * Ideal.pow (k1 - Ideal.div k1 (k1 + Ideal.exp (-x))) k2) * (-(Ideal.log (Ideal.div k1 (k1 + Ideal.exp (-x)) + keps)))
    - (k34 * Ideal.pow (Ideal.div k1 (k1 + Ideal.exp (-x))) k2) * (-(Ideal.log1p (-(Ideal.div k1 (k1 + Ideal.exp (-x))) + keps)))

/-! ## One pair of boxes -/

/-- The near side of a box along one axis: centre minus half the extent. -/
def lo (c s : EReal) : EReal := c - khalf * s
/-- The far side: centre plus half the extent. -/
def hi (c s : EReal) : EReal := c + khalf * s
/-- Absolute value as both programs have it. -/
def absE (x : EReal) : EReal := max x (-x)

/-- The pair's cost as the kernel's body computes it, the target's corners tx1, ty1 (near) and tx2, ty2 (far)
    given beside its centre form. -/
def pairKraw (cx cy w h tcx tcy tw th tx1 ty1 tx2 ty2 cls : EReal) : EReal :=
  let l1 := ((absE (cx - tcx) + absE (cy - tcy)) + absE (w - tw)) + absE (h - th)
  let dx := min (hi cx w) tx2 - max (lo cx w) tx1
  let dy := min (hi cy h) ty2 - max (lo cy h) ty1
  let inter := max k0 dx * max k0 dy
  let union := (w * h + tw * th) - inter
  let iou := Ideal.div inter union
  let ae := ((w + tw) - dx) * ((h + th) - dy)
  (l1 + cls) - ((iou - k1) + Ideal.div union ae)

/-- The pair's cost as the kernel computes it: the corners are the centre form's near and far sides. -/
def pairK (cx cy w h tcx tcy tw th cls : EReal) : EReal :=
  pairKraw cx cy w h tcx tcy tw th (lo tcx tw) (lo tcy th) (hi tcx tw) (hi tcy th) cls

/-- The pair's cost as the reference computes it. -/
def pairR (cx cy w h tcx tcy tw th cls : EReal) : EReal :=
  let l1 := k0 + (absE (cx - tcx) + absE (cy - tcy) + absE (w - tw) + absE (h - th))
  let a1 := (hi cx w - lo cx w) * (hi cy h - lo cy h)
  let a2 := (hi tcx tw - lo tcx tw) * (hi tcy th - lo tcy th)
  let inter := max k0 (min (hi cx w) (hi tcx tw) - max (lo cx w) (lo tcx tw))
                * max k0 (min (hi cy h) (hi tcy th) - max (lo cy h) (lo tcy th))
  let union := (a1 + a2) - inter
  let iou := Ideal.div inter union
  let ae := max k0 (max (hi cx w) (hi tcx tw) - min (lo cx w) (lo tcx tw))
              * max k0 (max (hi cy h) (hi tcy th) - min (lo cy h) (lo tcy th))
  ((k1 * l1) + (k1 * cls)) + (k1 * (-(iou - Ideal.div (ae - union) ae)))

/-! ## The whole arrays -/

abbrev SLogits : Shape := ⟨3, ![16, 900, 91]⟩
abbrev SBoxes : Shape := ⟨3, ![16, 900, 4]⟩
abbrev SIds : Shape := ⟨1, ![1600]⟩
abbrev STgt : Shape := ⟨2, ![1600, 4]⟩
abbrev SOut : Shape := ⟨3, ![16, 900, 1600]⟩

/-- The 0/1 column entry: class c against the target's label clamped to [0, 90]. -/
def oh (id : BitVec 32) (c : Fin 91) : EReal := if (c.val : ℤ) = min 90 (max 0 id.toInt) then 1 else 0

/-- The kernel's result at batch b, query q, target j. -/
def kernelAt (A0 : SLogits.Idx → EReal) (A1 : SBoxes.Idx → EReal) (A2 : SIds.Idx → BitVec 32) (A3 : STgt.Idx → EReal)
    (b : Fin 16) (q : Fin 900) (j : Fin 1600) : EReal :=
  pairK (A1 (ix3 b q (0 : Fin 4))) (A1 (ix3 b q (1 : Fin 4))) (A1 (ix3 b q (2 : Fin 4))) (A1 (ix3 b q (3 : Fin 4)))
    (A3 (ix2 j (0 : Fin 4))) (A3 (ix2 j (1 : Fin 4))) (A3 (ix2 j (2 : Fin 4))) (A3 (ix2 j (3 : Fin 4)))
    (∑ c : Fin 91, featK (A0 (ix3 b q c)) * oh (A2 (ix1 j)) c)

/-- The reference's result there, the selected class of target j given as col j. -/
def refAt (A0 : SLogits.Idx → EReal) (A1 : SBoxes.Idx → EReal) (col : Fin 1600 → Fin 91) (A3 : STgt.Idx → EReal)
    (b : Fin 16) (q : Fin 900) (j : Fin 1600) : EReal :=
  pairR (A1 (ix3 b q (0 : Fin 4))) (A1 (ix3 b q (1 : Fin 4))) (A1 (ix3 b q (2 : Fin 4))) (A1 (ix3 b q (3 : Fin 4)))
    (A3 (ix2 j (0 : Fin 4))) (A3 (ix2 j (1 : Fin 4))) (A3 (ix2 j (2 : Fin 4))) (A3 (ix2 j (3 : Fin 4)))
    (featR (A0 (ix3 b q (col j))))

/-- The kernel's whole result array. -/
def kernelRes (A0 : SLogits.Idx → EReal) (A1 : SBoxes.Idx → EReal) (A2 : SIds.Idx → BitVec 32) (A3 : STgt.Idx → EReal) :
    SOut.Idx → EReal := fun i => kernelAt A0 A1 A2 A3 (i 0) (i 1) (i 2)

/-- The reference's whole result array. -/
def refRes (A0 : SLogits.Idx → EReal) (A1 : SBoxes.Idx → EReal) (col : Fin 1600 → Fin 91) (A3 : STgt.Idx → EReal) :
    SOut.Idx → EReal := fun i => refAt A0 A1 col A3 (i 0) (i 1) (i 2)

/-- The selected class of a label known to lie in [0, 91). -/
def colOf (A2 : SIds.Idx → BitVec 32) (h : ∀ j : Fin 1600, 0 ≤ (A2 (ix1 j)).toInt ∧ (A2 (ix1 j)).toInt < 91) : Fin 1600 → Fin 91 :=
  fun j => ⟨(A2 (ix1 j)).toInt.toNat, by have := h j; omega⟩

end Cert.CostSpec

end
-- ==== Proof.LibPlainDot.lean ====
/-
  The plain matrix product read at an index.

  For the contraction pattern "rows × inner" by "inner × columns" (left axis 1 against right axis 0, no batch
  axis), the product into a zero accumulator, and the host's product of the same operands, are at output
  index (p, q) the sum over the inner coordinate k of l(p, k) · r(k, q). The contraction's own index type
  has one axis of extent K; the sum is re-indexed through the bijection of that type with `Fin K`.
  Nothing here depends on a program: the three extents are variables.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The plain pattern contracts exactly one axis. -/
theorem contr_rank : (DotDims.plain M K N).contr.rank = 1 := rfl

/-- That axis has the inner extent. -/
theorem contr_size : (DotDims.plain M K N).contr.size ⟨0, by rw [contr_rank]; exact Nat.one_pos⟩ = K := rfl

/-- The bijection of the contraction's index type with the inner coordinate. -/
abbrev inner : (DotDims.plain M K N).contr.Idx ≃ Fin K :=
  contrEquiv1 (DotDims.plain M K N) K contr_rank contr_size

/-- At output index j and inner coordinate k the left operand is read at (j₀, k). -/
theorem lhsIdx_inner (j : (⟨2, ![M, N]⟩ : Shape).Idx) (k : Fin K) :
    (DotDims.plain M K N).lhsIdx j (inner.symm k) = ix2 (j 0) k := by
  funext a
  match a with
  | ⟨0, _⟩ => rfl
  | ⟨1, _⟩ =>
    apply Fin.ext
    exact ((DotDims.plain M K N).lhsIdx_val_of_single (cl := 1) rfl j (inner.symm k)).trans
      (contrEquiv1_symm_val (DotDims.plain M K N) K contr_rank contr_size k)

/-- At output index j and inner coordinate k the right operand is read at (k, j₁). -/
theorem rhsIdx_inner (j : (⟨2, ![M, N]⟩ : Shape).Idx) (k : Fin K) :
    (DotDims.plain M K N).rhsIdx j (inner.symm k) = ix2 k (j 1) := by
  funext a
  match a with
  | ⟨0, _⟩ =>
    apply Fin.ext
    exact ((DotDims.plain M K N).rhsIdx_val_of_single (cr := 0) rfl j (inner.symm k)).trans
      (contrEquiv1_symm_val (DotDims.plain M K N) K contr_rank contr_size k)
  | ⟨1, _⟩ => rfl

/-- The contraction's sum, over the inner coordinate. -/
theorem sum_inner (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (inner (M := M) (K := K) (N := N)).symm]
  exact Finset.sum_congr rfl fun k _ =>
    congrArg₂ (· * ·) (congrArg l (lhsIdx_inner j k)) (congrArg r (rhsIdx_inner j k))

/-- A kernel's product into the zero accumulator, at an index. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_inner l r j)

/-- The host's product, at an index: the same sum. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_inner l r j)

end Cert.LibPlainDot

end
-- ==== Proof.KPay.lean ====
/-
  The value the idealized kernel's body stores, read at one index (p, q) of its 480 x 1600 block.

  Over the extended reals every operation of the body is exact, so the stored value is a closed expression in
  the row p of the logits and of the predicted boxes, the column q of the two target-box tables and of the 0/1
  class table: the cost of the pair (query p, target q) as the kernel spells it, with the class term the sum over
  the 91 classes of the focal feature of logit (p, c) times the table's entry (c, q).

  The body is a chain of pointwise operations around four kinds of layout operation: a reshape to the same
  shape (the identity), the cut of one column of a 480 x 4 block or one row of a 4 x 1600 block, the spread of a
  480 x 1 column or a 1 x 1600 row over the 480 x 1600 block, and one matrix product into a zero accumulator.
  Each is read at an index by one lemma; the pointwise operations read through by definition.
-/
import proofs.«417686_j11175504904384_3_alg».proof.Proof.KBase
import proofs.«417686_j11175504904384_3_alg».proof.Proof.CostSpec
import proofs.«417686_j11175504904384_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen
open Cert.CostSpec (featK pairKraw lo hi absE k0 k1 khalf kquarter k34 keps)

/-! ## The layout operations at an index -/

/-- An [a, 1] column spread over [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column of the block spread over the block. -/
theorem spreadCol (v : FVec Ideal S480x1 .f32) (p : Fin 480) (q : Fin 1600) :
    broadcastTo S480x1600 v broadcasts_S480x1_S480x1600 (ix2 p q) = v (ix2 p (0 : Fin 1)) :=
  broadcastTo_a1_ab_apply v broadcasts_S480x1_S480x1600 p q

/-- A row of the block spread over the block. -/
theorem spreadRow (v : FVec Ideal S1x1600 .f32) (p : Fin 480) (q : Fin 1600) :
    broadcastTo S480x1600 v broadcasts_S1x1600_S480x1600 (ix2 p q) = v (ix2 (0 : Fin 1) q) :=
  broadcastTo_1b_ab_apply v broadcasts_S1x1600_S480x1600 p q

/-- Column 0 of a 480 x 4 block. -/
theorem col0 (v : FVec Ideal S480x4 .f32) (p : Fin 480) :
    extractStridedSlice S480x1 ![0, 0] v slices_S480x4_o0_0_S480x1 (ix2 p (0 : Fin 1)) = v (ix2 p (0 : Fin 4)) :=
  slice2_axis1_apply 0 v slices_S480x4_o0_0_S480x1 p 0 0 rfl
/-- Column 1. -/
theorem col1 (v : FVec Ideal S480x4 .f32) (p : Fin 480) :
    extractStridedSlice S480x1 ![0, 1] v slices_S480x4_o0_1_S480x1 (ix2 p (0 : Fin 1)) = v (ix2 p (1 : Fin 4)) :=
  slice2_axis1_apply 1 v slices_S480x4_o0_1_S480x1 p 0 1 rfl
/-- Column 2. -/
theorem col2 (v : FVec Ideal S480x4 .f32) (p : Fin 480) :
    extractStridedSlice S480x1 ![0, 2] v slices_S480x4_o0_2_S480x1 (ix2 p (0 : Fin 1)) = v (ix2 p (2 : Fin 4)) :=
  slice2_axis1_apply 2 v slices_S480x4_o0_2_S480x1 p 0 2 rfl
/-- Column 3. -/
theorem col3 (v : FVec Ideal S480x4 .f32) (p : Fin 480) :
    extractStridedSlice S480x1 ![0, 3] v slices_S480x4_o0_3_S480x1 (ix2 p (0 : Fin 1)) = v (ix2 p (3 : Fin 4)) :=
  slice2_axis1_apply 3 v slices_S480x4_o0_3_S480x1 p 0 3 rfl

/-- Row 0 of a 4 x 1600 block. -/
theorem row0 (v : FVec Ideal S4x1600 .f32) (q : Fin 1600) :
    extractStridedSlice S1x1600 ![0, 0] v slices_S4x1600_o0_0_S1x1600 (ix2 (0 : Fin 1) q) = v (ix2 (0 : Fin 4) q) :=
  slice2_axis0_apply 0 v slices_S4x1600_o0_0_S1x1600 0 q 0 rfl
/-- Row 1. -/
theorem row1 (v : FVec Ideal S4x1600 .f32) (q : Fin 1600) :
    extractStridedSlice S1x1600 ![1, 0] v slices_S4x1600_o1_0_S1x1600 (ix2 (0 : Fin 1) q) = v (ix2 (1 : Fin 4) q) :=
  slice2_axis0_apply 1 v slices_S4x1600_o1_0_S1x1600 0 q 1 rfl
/-- Row 2. -/
theorem row2 (v : FVec Ideal S4x1600 .f32) (q : Fin 1600) :
    extractStridedSlice S1x1600 ![2, 0] v slices_S4x1600_o2_0_S1x1600 (ix2 (0 : Fin 1) q) = v (ix2 (2 : Fin 4) q) :=
  slice2_axis0_apply 2 v slices_S4x1600_o2_0_S1x1600 0 q 2 rfl
/-- Row 3. -/
theorem row3 (v : FVec Ideal S4x1600 .f32) (q : Fin 1600) :
    extractStridedSlice S1x1600 ![3, 0] v slices_S4x1600_o3_0_S1x1600 (ix2 (0 : Fin 1) q) = v (ix2 (3 : Fin 4) q) :=
  slice2_axis0_apply 3 v slices_S4x1600_o3_0_S1x1600 0 q 3 rfl

/-- The absolute value at an index. -/
theorem absf_apply {s : Shape} {φ : FTy} (a : FVec Ideal s φ) (i : s.Idx) : absf a i = absE (a i) := rfl

/-! ## The payloads at an index -/

/-- The reshape of the predicted boxes to their own shape. -/
theorem pay2_eq (v2 : Vec Ideal S480x4 .f32) : k0_pay2 (F := Ideal) v2 = v2 := by
  unfold k0_pay2
  exact shapeCast_self v2 shapeCasts_S480x4_S480x4
/-- The reshape of the centre-form targets to their own shape. -/
theorem pay3_eq (v4 : Vec Ideal S4x1600 .f32) : k0_pay3 (F := Ideal) v4 = v4 := by
  unfold k0_pay3
  exact shapeCast_self v4 shapeCasts_S4x1600_S4x1600
/-- The reshape of the corner-form targets to their own shape. -/
theorem pay4_eq (v6 : Vec Ideal S4x1600 .f32) : k0_pay4 (F := Ideal) v6 = v6 := by
  unfold k0_pay4
  exact shapeCast_self v6 shapeCasts_S4x1600_S4x1600

/-- The predicted centre's x. -/
theorem pay6_apply (v2 : Vec Ideal S480x4 .f32) (p : Fin 480) :
    k0_pay6 (F := Ideal) v2 (ix2 p (0 : Fin 1)) = v2 (ix2 p (0 : Fin 4)) := by
  unfold k0_pay6
  exact (col0 (k0_pay2 (F := Ideal) v2) p).trans (congrFun (pay2_eq v2) _)
/-- The predicted centre's y. -/
theorem pay7_apply (v3 : FVec Ideal S480x4 .f32) (p : Fin 480) :
    k0_pay7 v3 (ix2 p (0 : Fin 1)) = v3 (ix2 p (1 : Fin 4)) := by
  unfold k0_pay7
  exact col1 v3 p
/-- The predicted width. -/
theorem pay8_apply (v3 : FVec Ideal S480x4 .f32) (p : Fin 480) :
    k0_pay8 v3 (ix2 p (0 : Fin 1)) = v3 (ix2 p (2 : Fin 4)) := by
  unfold k0_pay8
  exact col2 v3 p
/-- The predicted height. -/
theorem pay9_apply (v3 : FVec Ideal S480x4 .f32) (p : Fin 480) :
    k0_pay9 v3 (ix2 p (0 : Fin 1)) = v3 (ix2 p (3 : Fin 4)) := by
  unfold k0_pay9
  exact col3 v3 p
/-- The predicted box's far side along y. -/
theorem pay10_apply (v3 : FVec Ideal S480x4 .f32) (p : Fin 480) :
    k0_pay10 v3 (ix2 p (0 : Fin 1)) = hi (v3 (ix2 p (1 : Fin 4))) (v3 (ix2 p (3 : Fin 4))) := by
  unfold k0_pay10
  show k0_pay7 v3 (ix2 p (0 : Fin 1)) + khalf * k0_pay9 v3 (ix2 p (0 : Fin 1)) = _
  rw [pay7_apply, pay9_apply]
  rfl
/-- The target width. -/
theorem pay11_apply (v5 : FVec Ideal S4x1600 .f32) (q : Fin 1600) :
    k0_pay11 v5 (ix2 (0 : Fin 1) q) = v5 (ix2 (2 : Fin 4) q) := by
  unfold k0_pay11
  exact row2 v5 q
/-- The target height. -/
theorem pay12_apply (v5 : FVec Ideal S4x1600 .f32) (q : Fin 1600) :
    k0_pay12 v5 (ix2 (0 : Fin 1) q) = v5 (ix2 (3 : Fin 4) q) := by
  unfold k0_pay12
  exact row3 v5 q
/-- The target's far corner along y. -/
theorem pay13_apply (v7 : FVec Ideal S4x1600 .f32) (q : Fin 1600) :
    k0_pay13 v7 (ix2 (0 : Fin 1) q) = v7 (ix2 (3 : Fin 4) q) := by
  unfold k0_pay13
  exact row3 v7 q

/-- The L1 distance of the two boxes in centre form. -/
theorem pay14_apply (v3 : FVec Ideal S480x4 .f32) (v5 : FVec Ideal S4x1600 .f32) (v38 : FVec Ideal S480x1 .f32)
    (p : Fin 480) (q : Fin 1600) :
    k0_pay14 v3 v5 v38 (ix2 p q)
      = ((absE (v38 (ix2 p (0 : Fin 1)) - v5 (ix2 (0 : Fin 4) q)) + absE (v3 (ix2 p (1 : Fin 4)) - v5 (ix2 (1 : Fin 4) q)))
          + absE (v3 (ix2 p (2 : Fin 4)) - v5 (ix2 (2 : Fin 4) q))) + absE (v3 (ix2 p (3 : Fin 4)) - v5 (ix2 (3 : Fin 4) q)) := by
  unfold k0_pay14
  simp only [addf_apply, subf_apply, absf_apply, spreadCol, spreadRow, row0, row1, pay7_apply, pay8_apply, pay9_apply,
    pay11_apply, pay12_apply]

/-- The predicted box's area. -/
theorem pay15_apply (v3 : FVec Ideal S480x4 .f32) (p : Fin 480) :
    k0_pay15 v3 (ix2 p (0 : Fin 1)) = v3 (ix2 p (2 : Fin 4)) * v3 (ix2 p (3 : Fin 4)) := by
  unfold k0_pay15
  show k0_pay8 v3 (ix2 p (0 : Fin 1)) * k0_pay9 v3 (ix2 p (0 : Fin 1)) = _
  rw [pay8_apply, pay9_apply]
/-- The target box's area. -/
theorem pay16_apply (v5 : FVec Ideal S4x1600 .f32) (q : Fin 1600) :
    k0_pay16 v5 (ix2 (0 : Fin 1) q) = v5 (ix2 (2 : Fin 4) q) * v5 (ix2 (3 : Fin 4) q) := by
  unfold k0_pay16
  show k0_pay11 v5 (ix2 (0 : Fin 1) q) * k0_pay12 v5 (ix2 (0 : Fin 1) q) = _
  rw [pay11_apply, pay12_apply]

/-- The signed overlap along x. -/
theorem pay17_apply (v3 : FVec Ideal S480x4 .f32) (v7 : FVec Ideal S4x1600 .f32) (v38 : FVec Ideal S480x1 .f32)
    (p : Fin 480) (q : Fin 1600) :
    k0_pay17 v3 v7 v38 (ix2 p q)
      = min (hi (v38 (ix2 p (0 : Fin 1))) (v3 (ix2 p (2 : Fin 4)))) (v7 (ix2 (2 : Fin 4) q))
          - max (lo (v38 (ix2 p (0 : Fin 1))) (v3 (ix2 p (2 : Fin 4)))) (v7 (ix2 (0 : Fin 4) q)) := by
  unfold k0_pay17
  simp only [addf_apply, subf_apply, mulf_apply, maximumf_apply, minimumf_apply, broadcast_apply, spreadCol, spreadRow,
    row0, row2, pay8_apply]
  rfl

/-- The overlap along x clipped at zero. -/
theorem pay18_apply (v3 : FVec Ideal S480x4 .f32) (v7 : FVec Ideal S4x1600 .f32) (v38 : FVec Ideal S480x1 .f32)
    (p : Fin 480) (q : Fin 1600) :
    k0_pay18 v3 v7 v38 (ix2 p q)
      = max k0 (min (hi (v38 (ix2 p (0 : Fin 1))) (v3 (ix2 p (2 : Fin 4)))) (v7 (ix2 (2 : Fin 4) q))
          - max (lo (v38 (ix2 p (0 : Fin 1))) (v3 (ix2 p (2 : Fin 4)))) (v7 (ix2 (0 : Fin 4) q))) := by
  unfold k0_pay18
  show max k0 (k0_pay17 v3 v7 v38 (ix2 p q)) = _
  rw [pay17_apply]

/-- The predicted box's near side along y, spread over the block. -/
theorem pay19_apply (v3 : FVec Ideal S480x4 .f32) (p : Fin 480) (q : Fin 1600) :
    k0_pay19 v3 (ix2 p q) = lo (v3 (ix2 p (1 : Fin 4))) (v3 (ix2 p (3 : Fin 4))) := by
  unfold k0_pay19
  simp only [subf_apply, mulf_apply, broadcast_apply, spreadCol, pay7_apply, pay9_apply]
  rfl
/-- The target's near corner along y, spread over the block. -/
theorem pay20_apply (v7 : FVec Ideal S4x1600 .f32) (p : Fin 480) (q : Fin 1600) :
    k0_pay20 v7 (ix2 p q) = v7 (ix2 (1 : Fin 4) q) := by
  unfold k0_pay20
  simp only [spreadRow, row1]

/-! ## The class term: the matrix product -/

/-- The body's contraction pattern is the plain one, rows x inner by inner x columns. -/
theorem dot_eq_plain : dot_S480x91_S91x1600_S480x1600_1_0_0_1_n_n = DotDims.plain 480 91 1600 := rfl

/-- The class term at (p, q): the sum over the classes of the focal feature of logit (p, c) times the table's
    entry (c, q). -/
theorem pay5_apply (v0 : Vec Ideal S480x91 .f32) (v8 : Vec Ideal S91x1600 .bf16) (p : Fin 480) (q : Fin 1600) :
    k0_pay5 (F := Ideal) v0 v8 (ix2 p q) = ∑ c : Fin 91, featK (v0 (ix2 p c)) * v8 (ix2 c q) := by
  unfold k0_pay5
  rw [shapeCast_self v0 shapeCasts_S480x91_S480x91, shapeCast_self v8 shapeCasts_S91x1600_S91x1600, dot_eq_plain]
  exact Cert.LibPlainDot.matmul_zero_apply (M := 480) (K := 91) (N := 1600) (φ₁ := .bf16) (φ₂ := .bf16) none
    (fun i => featK (v0 i)) v8 (ix2 p q)

/-! ## The stored value -/

/-- The cost from its parts: l1 the box distance, cls the class term, dx and dy the signed overlaps along the two
    axes, mx the x overlap clipped at zero, a and ta the two areas, sw and sh the sums of the widths and of the
    heights. -/
def costOf (l1 cls dx mx dy a ta sw sh : EReal) : EReal :=
  (l1 + cls) - ((Ideal.div (mx * max k0 dy) ((a + ta) - mx * max k0 dy) - k1)
    + Ideal.div ((a + ta) - mx * max k0 dy) ((sw - dx) * (sh - dy)))

/-- The last payload at (p, q), from the values it reads. -/
theorem pay1_apply (v37 : FVec Ideal S480x1600 .f32) (v40 v41 v53 : FVec Ideal S480x1 .f32)
    (v56 v57 v61 : FVec Ideal S1x1600 .f32) (v80 : FVec Ideal S480x1600 .f32) (v81 : FVec Ideal S480x1 .f32)
    (v82 : FVec Ideal S1x1600 .f32) (v89 v91 v92 v93 : FVec Ideal S480x1600 .f32) (p : Fin 480) (q : Fin 1600) :
    k0_pay1 v37 v40 v41 v53 v56 v57 v61 v80 v81 v82 v89 v91 v92 v93 (ix2 p q)
      = costOf (v80 (ix2 p q)) (v37 (ix2 p q)) (v89 (ix2 p q)) (v91 (ix2 p q))
          (min (v53 (ix2 p (0 : Fin 1))) (v61 (ix2 (0 : Fin 1) q)) - max (v92 (ix2 p q)) (v93 (ix2 p q)))
          (v81 (ix2 p (0 : Fin 1))) (v82 (ix2 (0 : Fin 1) q))
          (v40 (ix2 p (0 : Fin 1)) + v56 (ix2 (0 : Fin 1) q)) (v41 (ix2 p (0 : Fin 1)) + v57 (ix2 (0 : Fin 1) q)) := by
  unfold k0_pay1
  simp only [addf_apply, subf_apply, mulf_apply, divf_apply, maximumf_apply, minimumf_apply, broadcast_apply, spreadCol,
    spreadRow]
  rfl

/-- THE STORED VALUE AT (p, q): the pair's cost as the kernel spells it, from row p of the predicted boxes, column q
    of the two target tables, and the class term. -/
theorem body_apply (v0 : Vec Ideal S480x91 .f32) (v2 : Vec Ideal S480x4 .f32) (v4 v6 : Vec Ideal S4x1600 .f32)
    (v8 : Vec Ideal S91x1600 .bf16) (p : Fin 480) (q : Fin 1600) :
    body (F := Ideal) v0 v2 v4 v6 v8 (ix2 p q)
      = pairKraw (v2 (ix2 p (0 : Fin 4))) (v2 (ix2 p (1 : Fin 4))) (v2 (ix2 p (2 : Fin 4))) (v2 (ix2 p (3 : Fin 4)))
          (v4 (ix2 (0 : Fin 4) q)) (v4 (ix2 (1 : Fin 4) q)) (v4 (ix2 (2 : Fin 4) q)) (v4 (ix2 (3 : Fin 4) q))
          (v6 (ix2 (0 : Fin 4) q)) (v6 (ix2 (1 : Fin 4) q)) (v6 (ix2 (2 : Fin 4) q)) (v6 (ix2 (3 : Fin 4) q))
          (∑ c : Fin 91, featK (v0 (ix2 p c)) * v8 (ix2 c q)) := by
  unfold body
  rw [pay1_apply, pay5_apply, pay14_apply, pay17_apply, pay18_apply, pay19_apply, pay20_apply, pay10_apply, pay13_apply,
    pay15_apply, pay16_apply, pay8_apply, pay9_apply, pay11_apply, pay12_apply, pay6_apply, pay2_eq, pay3_eq, pay4_eq]
  rfl

end Cert.KernelIdeal.Hand

end
-- ==== Proof.KHost.lean ====
/-
  What the idealized kernel's region finds in the five arrays its windows stage, index by index, over the
  extended reals: the arrays are written by the host operations before the region (two reshapes, the label
  clamp, the 0/1 class table, the target boxes' corners, two transposes) from the four argument arrays.
-/
import proofs.«417686_j11175504904384_3_alg».proof.Proof.KBase
import proofs.«417686_j11175504904384_3_alg».proof.Proof.CostSpec
import Idealize.ShloMosaic.Lib.ValueLayout
import Idealize.ShloMosaic.Lib.StableHlo.Predicate

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- A [16, 900, A] array reshaped to [14400, A] reads, at (n, k), the operand at (n / 900, n % 900, k). -/
theorem reshape_read {α : Type} {A : Nat} (x : (⟨3, ![16, 900, A]⟩ : Shape).Idx → α)
    (h : (⟨3, ![16, 900, A]⟩ : Shape).ShapeCasts ⟨2, ![14400, A]⟩) (n : Fin 14400) (k : Fin A) :
    shapeCast ⟨2, ![14400, A]⟩ x h (ix2 n k)
      = x (ix3 ⟨n.val / 900, by have := n.isLt; omega⟩ ⟨n.val % 900, Nat.mod_lt _ (by norm_num)⟩ k) := by
  refine shapeCast_apply _ _ _ _ ?_
  rw [Shape.rowMajor_val_two, Shape.rowMajor_val_three]
  show (n.val / 900 * 900 + n.val % 900) * A + k.val = n.val * A + k.val
  rw [Nat.div_add_mod' n.val 900]

/-- The logits as the region finds them: the [16, 900, 91] argument reshaped to [14400, 91]. -/
theorem V_v0_eq (c : Dev nD) :
    (V m c main_v0 : S14400x91.Idx → EReal)
      = shapeCast S14400x91 (m ((c : Thread nD τ).loc main_arg0) : S16x900x91.Idx → EReal) shapeCasts_S16x900x91_S14400x91 := by
  dsimp only [V, V0]
  simp only [hostOps0, hostOps0_1, hostOps0_2, List.flatten_cons, List.flatten_nil, List.append_nil, List.cons_append, List.nil_append]
  after_results <;> rfl

/-- The logits at (n, k): query n = 900 b + q of batch b. -/
theorem V_v0_apply (c : Dev nD) (n : Fin 14400) (k : Fin 91) :
    (V m c main_v0 : S14400x91.Idx → EReal) (ix2 n k)
      = (m ((c : Thread nD τ).loc main_arg0) : S16x900x91.Idx → EReal)
          (ix3 ⟨n.val / 900, by have := n.isLt; omega⟩ ⟨n.val % 900, Nat.mod_lt _ (by norm_num)⟩ k) := by
  rw [V_v0_eq]
  exact reshape_read _ _ n k

/-- The predicted boxes as the region finds them: the [16, 900, 4] argument reshaped to [14400, 4]. -/
theorem V_v1_eq (c : Dev nD) :
    (V m c main_v1 : S14400x4.Idx → EReal)
      = shapeCast S14400x4 (m ((c : Thread nD τ).loc main_arg1) : S16x900x4.Idx → EReal) shapeCasts_S16x900x4_S14400x4 := by
  dsimp only [V, V0]
  simp only [hostOps0, hostOps0_1, hostOps0_2, List.flatten_cons, List.flatten_nil, List.append_nil, List.cons_append, List.nil_append]
  after_results <;> rfl

/-- The predicted boxes at (n, k). -/
theorem V_v1_apply (c : Dev nD) (n : Fin 14400) (k : Fin 4) :
    (V m c main_v1 : S14400x4.Idx → EReal) (ix2 n k)
      = (m ((c : Thread nD τ).loc main_arg1) : S16x900x4.Idx → EReal)
          (ix3 ⟨n.val / 900, by have := n.isLt; omega⟩ ⟨n.val % 900, Nat.mod_lt _ (by norm_num)⟩ k) := by
  rw [V_v1_eq]
  exact reshape_read _ _ n k

/-- The target boxes in centre form as the region finds them: the [1600, 4] argument transposed. -/
theorem V_v35_eq (c : Dev nD) :
    (V m c main_v35 : S4x1600.Idx → EReal)
      = transpose S4x1600 [1, 0] (m ((c : Thread nD τ).loc main_arg3) : S1600x4.Idx → EReal) transposes_S1600x4_S4x1600_1_0 := by
  dsimp only [V, V0]
  simp only [hostOps0, hostOps0_1, hostOps0_2, List.flatten_cons, List.flatten_nil, List.append_nil, List.cons_append, List.nil_append]
  after_results <;> rfl

/-- Field k of target j. -/
theorem V_v35_apply (c : Dev nD) (k : Fin 4) (j : Fin 1600) :
    (V m c main_v35 : S4x1600.Idx → EReal) (ix2 k j)
      = (m ((c : Thread nD τ).loc main_arg3) : S1600x4.Idx → EReal) (ix2 j k) := by
  rw [V_v35_eq]
  exact transpose_ix2_apply _ _ k j

/-! ## The target boxes' corners -/

/-- Column o of a [1600, 4] array as a vector — the [0:1600, o:o+1] slice reshaped to [1600] — reads, at j, the
    array at (j, o). -/
theorem col_read {α : Type} (x : S1600x4.Idx → α) (o : Nat) (k : Fin 4) (hk : k.val = o)
    (hs : S1600x4.Slices ![0, o] S1600x1) (hc : S1600x1.ShapeCasts S1600) (j : Fin 1600) :
    shapeCast S1600 (extractStridedSlice S1600x1 ![0, o] x hs) hc (ix1 j) = x (ix2 j k) := by
  rw [shapeCast_apply _ hc (ix1 j) (ix2 j (0 : Fin 1)) (by
    rw [Shape.rowMajor_val_two, Shape.rowMajor_val_one]
    show j.val * 1 + 0 = j.val
    omega)]
  refine extractStridedSlice_apply _ x hs _ _ fun a => ?_
  match a with
  | ⟨0, _⟩ => show j.val = 0 + j.val; omega
  | ⟨1, _⟩ => show k.val = o + 0; omega

/-- A vector made a [1600, 1] column reads, at (j, 0), the vector at j. -/
theorem asCol_read {α : Type} (v : S1600.Idx → α) (hb : S1600.BroadcastsInDim S1600x1 (![0] : Fin 1 → Fin S1600x1.rank))
    (j : Fin 1600) : broadcastInDim S1600x1 ![0] hb v (ix2 j (0 : Fin 1)) = v (ix1 j) := by
  refine broadcastInDim_apply _ hb v _ _ fun a => ?_
  match a with
  | ⟨0, _⟩ => rfl

/-- Four [1600, 1] columns side by side read, at (j, r), column r at (j, 0). -/
theorem concat4_read {α : Type} (u0 u1 u2 u3 : S1600x1.Idx → α)
    (h : Shape.Concatenates [S1600x1, S1600x1, S1600x1, S1600x1] S1600x4 1) (j : Fin 1600) :
    concatenate S1600x4 1 [⟨S1600x1, u0⟩, ⟨S1600x1, u1⟩, ⟨S1600x1, u2⟩, ⟨S1600x1, u3⟩] h (ix2 j (0 : Fin 4)) = u0 (ix2 j (0 : Fin 1))
    ∧ concatenate S1600x4 1 [⟨S1600x1, u0⟩, ⟨S1600x1, u1⟩, ⟨S1600x1, u2⟩, ⟨S1600x1, u3⟩] h (ix2 j (1 : Fin 4)) = u1 (ix2 j (0 : Fin 1))
    ∧ concatenate S1600x4 1 [⟨S1600x1, u0⟩, ⟨S1600x1, u1⟩, ⟨S1600x1, u2⟩, ⟨S1600x1, u3⟩] h (ix2 j (2 : Fin 4)) = u2 (ix2 j (0 : Fin 1))
    ∧ concatenate S1600x4 1 [⟨S1600x1, u0⟩, ⟨S1600x1, u1⟩, ⟨S1600x1, u2⟩, ⟨S1600x1, u3⟩] h (ix2 j (3 : Fin 4)) = u3 (ix2 j (0 : Fin 1)) := by
  refine ⟨?_, ?_, ?_, ?_⟩
  · refine concatenate_apply_piece (t := S1600x4) (1 : Fin 2) ([⟨S1600x1, u0⟩, ⟨S1600x1, u1⟩, ⟨S1600x1, u2⟩, ⟨S1600x1, u3⟩] : List ((s : Shape) × (s.Idx → α))) h _ 0 (by simp) S1600x1 u0 rfl rfl 0 rfl (ix2 j (0 : Fin 1)) (fun b hb => ?_) rfl
    match b with
    | ⟨0, _⟩ => rfl
    | ⟨1, _⟩ => exact absurd rfl hb
  · refine concatenate_apply_piece (t := S1600x4) (1 : Fin 2) ([⟨S1600x1, u0⟩, ⟨S1600x1, u1⟩, ⟨S1600x1, u2⟩, ⟨S1600x1, u3⟩] : List ((s : Shape) × (s.Idx → α))) h _ 1 (by simp) S1600x1 u1 rfl rfl 1 rfl (ix2 j (0 : Fin 1)) (fun b hb => ?_) rfl
    match b with
    | ⟨0, _⟩ => rfl
    | ⟨1, _⟩ => exact absurd rfl hb
  · refine concatenate_apply_piece (t := S1600x4) (1 : Fin 2) ([⟨S1600x1, u0⟩, ⟨S1600x1, u1⟩, ⟨S1600x1, u2⟩, ⟨S1600x1, u3⟩] : List ((s : Shape) × (s.Idx → α))) h _ 2 (by simp) S1600x1 u2 rfl rfl 2 rfl (ix2 j (0 : Fin 1)) (fun b hb => ?_) rfl
    match b with
    | ⟨0, _⟩ => rfl
    | ⟨1, _⟩ => exact absurd rfl hb
  · refine concatenate_apply_piece (t := S1600x4) (1 : Fin 2) ([⟨S1600x1, u0⟩, ⟨S1600x1, u1⟩, ⟨S1600x1, u2⟩, ⟨S1600x1, u3⟩] : List ((s : Shape) × (s.Idx → α))) h _ 3 (by simp) S1600x1 u3 rfl rfl 3 rfl (ix2 j (0 : Fin 1)) (fun b hb => ?_) rfl
    match b with
    | ⟨0, _⟩ => rfl
    | ⟨1, _⟩ => exact absurd rfl hb

/-- The constant 1/2 at every target. -/
abbrev halfV : S1600.Idx → EReal :=
  broadcastInDim S1600 ![] bcast_S_S1600 (constant (F := Ideal) S_ .f32 0x3F000000#32)

/-- Column o of the target array as a vector. -/
abbrev colV (x : S1600x4.Idx → EReal) (o : Nat) (hs : S1600x4.Slices ![0, o] S1600x1) : S1600.Idx → EReal :=
  shapeCast S1600 (extractStridedSlice S1600x1 ![0, o] x hs) shapeCasts_S1600x1_S1600

/-- A vector as a [1600, 1] column. -/
abbrev asCol (v : S1600.Idx → EReal) : S1600x1.Idx → EReal := broadcastInDim S1600x1 ![0] bcast_S1600_S1600x1_0 v

/-- The four corner columns side by side: x − w/2, y − h/2, x + w/2, y + h/2. -/
def cornersV (x : S1600x4.Idx → EReal) : S1600x4.Idx → EReal :=
  concatenate S1600x4 1
    [⟨S1600x1, asCol (subf (F := Ideal) (φ := .f32) (colV x 0 slices_S1600x4_S1600x1_0_0)
        (mulf (F := Ideal) (φ := .f32) halfV (colV x 2 slices_S1600x4_S1600x1_0_2)))⟩,
     ⟨S1600x1, asCol (subf (F := Ideal) (φ := .f32) (colV x 1 slices_S1600x4_S1600x1_0_1)
        (mulf (F := Ideal) (φ := .f32) halfV (colV x 3 slices_S1600x4_S1600x1_0_3)))⟩,
     ⟨S1600x1, asCol (addf (F := Ideal) (φ := .f32) (colV x 0 slices_S1600x4_S1600x1_0_0)
        (mulf (F := Ideal) (φ := .f32) halfV (colV x 2 slices_S1600x4_S1600x1_0_2)))⟩,
     ⟨S1600x1, asCol (addf (F := Ideal) (φ := .f32) (colV x 1 slices_S1600x4_S1600x1_0_1)
        (mulf (F := Ideal) (φ := .f32) halfV (colV x 3 slices_S1600x4_S1600x1_0_3)))⟩]
    concatenates_S1600x1_S1600x1_S1600x1_S1600x1_S1600x4_d1

/-- The target boxes in corner form as the region finds them: the corner columns, transposed. -/
theorem V_v36_eq (c : Dev nD) :
    (V m c main_v36 : S4x1600.Idx → EReal)
      = transpose S4x1600 [1, 0] (cornersV (m ((c : Thread nD τ).loc main_arg3) : S1600x4.Idx → EReal))
          transposes_S1600x4_S4x1600_1_0 := by
  dsimp only [V, V0]
  simp only [hostOps0, hostOps0_1, hostOps0_2, List.flatten_cons, List.flatten_nil, List.append_nil, List.cons_append, List.nil_append]
  after_results <;> rfl

/-- The corner columns at target j: the near and far sides of its box along each axis. -/
theorem corners_read (x : S1600x4.Idx → EReal) (j : Fin 1600) :
    cornersV x (ix2 j (0 : Fin 4)) = Cert.CostSpec.lo (x (ix2 j (0 : Fin 4))) (x (ix2 j (2 : Fin 4)))
    ∧ cornersV x (ix2 j (1 : Fin 4)) = Cert.CostSpec.lo (x (ix2 j (1 : Fin 4))) (x (ix2 j (3 : Fin 4)))
    ∧ cornersV x (ix2 j (2 : Fin 4)) = Cert.CostSpec.hi (x (ix2 j (0 : Fin 4))) (x (ix2 j (2 : Fin 4)))
    ∧ cornersV x (ix2 j (3 : Fin 4)) = Cert.CostSpec.hi (x (ix2 j (1 : Fin 4))) (x (ix2 j (3 : Fin 4))) := by
  have e0 := col_read x 0 (0 : Fin 4) rfl slices_S1600x4_S1600x1_0_0 shapeCasts_S1600x1_S1600 j
  have e1 := col_read x 1 (1 : Fin 4) rfl slices_S1600x4_S1600x1_0_1 shapeCasts_S1600x1_S1600 j
  have e2 := col_read x 2 (2 : Fin 4) rfl slices_S1600x4_S1600x1_0_2 shapeCasts_S1600x1_S1600 j
  have e3 := col_read x 3 (3 : Fin 4) rfl slices_S1600x4_S1600x1_0_3 shapeCasts_S1600x1_S1600 j
  unfold cornersV
  dsimp only [asCol]
  refine ⟨?_, ?_, ?_, ?_⟩
  · rw [(concat4_read _ _ _ _ _ j).1, asCol_read, ← e0, ← e2]; rfl
  · rw [(concat4_read _ _ _ _ _ j).2.1, asCol_read, ← e1, ← e3]; rfl
  · rw [(concat4_read _ _ _ _ _ j).2.2.1, asCol_read, ← e0, ← e2]; rfl
  · rw [(concat4_read _ _ _ _ _ j).2.2.2, asCol_read, ← e1, ← e3]; rfl

/-- The target boxes' corners at target j: rows 0, 1 the near sides along x and y, rows 2, 3 the far sides. -/
theorem V_v36_apply (c : Dev nD) (j : Fin 1600) :
    (V m c main_v36 : S4x1600.Idx → EReal) (ix2 (0 : Fin 4) j)
        = Cert.CostSpec.lo ((m ((c : Thread nD τ).loc main_arg3) : S1600x4.Idx → EReal) (ix2 j (0 : Fin 4)))
            ((m ((c : Thread nD τ).loc main_arg3) : S1600x4.Idx → EReal) (ix2 j (2 : Fin 4)))
    ∧ (V m c main_v36 : S4x1600.Idx → EReal) (ix2 (1 : Fin 4) j)
        = Cert.CostSpec.lo ((m ((c : Thread nD τ).loc main_arg3) : S1600x4.Idx → EReal) (ix2 j (1 : Fin 4)))
            ((m ((c : Thread nD τ).loc main_arg3) : S1600x4.Idx → EReal) (ix2 j (3 : Fin 4)))
    ∧ (V m c main_v36 : S4x1600.Idx → EReal) (ix2 (2 : Fin 4) j)
        = Cert.CostSpec.hi ((m ((c : Thread nD τ).loc main_arg3) : S1600x4.Idx → EReal) (ix2 j (0 : Fin 4)))
            ((m ((c : Thread nD τ).loc main_arg3) : S1600x4.Idx → EReal) (ix2 j (2 : Fin 4)))
    ∧ (V m c main_v36 : S4x1600.Idx → EReal) (ix2 (3 : Fin 4) j)
        = Cert.CostSpec.hi ((m ((c : Thread nD τ).loc main_arg3) : S1600x4.Idx → EReal) (ix2 j (1 : Fin 4)))
            ((m ((c : Thread nD τ).loc main_arg3) : S1600x4.Idx → EReal) (ix2 j (3 : Fin 4))) := by
  rw [V_v36_eq]
  obtain ⟨h0, h1, h2, h3⟩ := corners_read (m ((c : Thread nD τ).loc main_arg3) : S1600x4.Idx → EReal) j
  refine ⟨?_, ?_, ?_, ?_⟩
  · rw [transpose_ix2_apply]; exact h0
  · rw [transpose_ix2_apply]; exact h1
  · rw [transpose_ix2_apply]; exact h2
  · rw [transpose_ix2_apply]; exact h3

/-! ## The 0/1 class table -/

/-- The class table from the labels: class number against the label clamped to [0, 90], as a 0/1 real. -/
def ohV (a2 : S1600.Idx → BitVec 32) : S91x1600.Idx → EReal :=
  uitofp (F := Ideal) (w := 1) .bf16
    (cmpi .eq
      (broadcastInDim S91x1600 ![0, 1] bcast_S91x1_S91x1600_0_1
        (broadcastInDim S91x1 ![0] bcast_S91_S91x1_0 (iotaInDim S91 32 0)))
      (broadcastInDim S91x1600 ![0, 1] bcast_S1x1600_S91x1600_0_1
        (broadcastInDim S1x1600 ![1] bcast_S1600_S1x1600_1
          (minsi (broadcastInDim S1600 ![] bcast_S_S1600 (constantI S_ 32 90#32))
            (maxsi (broadcastInDim S1600 ![] bcast_S_S1600 (constantI S_ 32 0#32)) a2)))))

/-- The class table as the region finds it. -/
theorem V_v9_eq (c : Dev nD) :
    (V m c main_v9 : S91x1600.Idx → EReal) = ohV (m ((c : Thread nD τ).loc main_arg2) : S1600.Idx → BitVec 32) := by
  dsimp only [V, V0]
  simp only [hostOps0, hostOps0_1, hostOps0_2, List.flatten_cons, List.flatten_nil, List.append_nil, List.cons_append, List.nil_append]
  after_results <;> (try simp only [StableHlo.TRef.ofBuf, StableHlo.TRef.toBuf, cast_eq]) <;> rfl

/-- The class-number side of the comparison at (cl, j) is the word cl. -/
theorem iota_side (h1 : S91x1.BroadcastsInDim S91x1600 (![0, 1] : Fin 2 → Fin S91x1600.rank))
    (h2 : S91.BroadcastsInDim S91x1 (![0] : Fin 1 → Fin S91x1.rank)) (cl : Fin 91) (j : Fin 1600) :
    broadcastInDim S91x1600 ![0, 1] h1 (broadcastInDim S91x1 ![0] h2 (iotaInDim S91 32 0)) (ix2 cl j) = BitVec.ofNat 32 cl.val := by
  rw [broadcastInDim_apply _ h1 _ (ix2 cl j) (ix2 cl (0 : Fin 1)) (fun a => match a with | ⟨0, _⟩ => rfl | ⟨1, _⟩ => rfl),
    broadcastInDim_apply _ h2 _ (ix2 cl (0 : Fin 1)) (ix1 cl) (fun a => match a with | ⟨0, _⟩ => rfl)]
  rfl

/-- The label side of the comparison at (cl, j) is the vector at j. -/
theorem label_side {α : Type} (v : S1600.Idx → α) (h1 : S1x1600.BroadcastsInDim S91x1600 (![0, 1] : Fin 2 → Fin S91x1600.rank))
    (h2 : S1600.BroadcastsInDim S1x1600 (![1] : Fin 1 → Fin S1x1600.rank)) (cl : Fin 91) (j : Fin 1600) :
    broadcastInDim S91x1600 ![0, 1] h1 (broadcastInDim S1x1600 ![1] h2 v) (ix2 cl j) = v (ix1 j) := by
  rw [broadcastInDim_apply _ h1 _ (ix2 cl j) (ix2 (0 : Fin 1) j) (fun a => match a with | ⟨0, _⟩ => rfl | ⟨1, _⟩ => rfl),
    broadcastInDim_apply _ h2 _ (ix2 (0 : Fin 1) j) (ix1 j) (fun a => match a with | ⟨0, _⟩ => rfl)]

/-- The clamp of a word to [0, 90] by signed maximum then minimum, read signed. -/
theorem clamp_toInt (w : BitVec 32) : (IntOp.minsi 90#32 (IntOp.maxsi 0#32 w)).toInt = min 90 (max 0 w.toInt) := by
  have h0 : (0#32 : BitVec 32).toInt = 0 := by decide
  have h90 : (90#32 : BitVec 32).toInt = 90 := by decide
  unfold IntOp.minsi IntOp.maxsi
  by_cases hw : w.slt 0#32 = true
  · rw [if_pos hw]
    have h9 : ¬ ((90#32 : BitVec 32).slt 0#32 = true) := by decide
    rw [if_neg h9, h0]
    rw [BitVec.slt_iff_toInt_lt, h0] at hw
    omega
  · rw [if_neg hw]
    rw [BitVec.slt_iff_toInt_lt, h0] at hw
    by_cases h9 : (90#32 : BitVec 32).slt w = true
    · rw [if_pos h9, h90]
      rw [BitVec.slt_iff_toInt_lt, h90] at h9
      omega
    · rw [if_neg h9]
      rw [BitVec.slt_iff_toInt_lt, h90] at h9
      omega

theorem bit_ne_one : ∀ b : BitVec 1, b ≠ 1#1 → b = 0#1 := by decide

/-- The one-bit word "class cl equals the clamped label", as a real, is the 0/1 entry. -/
theorem oh_word (w : BitVec 32) (cl : Fin 91) :
    (((IntOp.cmpi .eq (BitVec.ofNat 32 cl.val) (IntOp.minsi 90#32 (IntOp.maxsi 0#32 w))).toNat : ℝ) : EReal)
      = Cert.CostSpec.oh w cl := by
  have hX : (BitVec.ofNat 32 cl.val).toInt = (cl.val : ℤ) :=
    StableHlo.Predicate.toInt_ofNat_small cl.val (by have := cl.isLt; omega)
  have key : BitVec.ofNat 32 cl.val = IntOp.minsi 90#32 (IntOp.maxsi 0#32 w) ↔ (cl.val : ℤ) = min 90 (max 0 w.toInt) := by
    rw [← clamp_toInt, ← hX]
    exact ⟨fun h => by rw [h], fun h => BitVec.eq_of_toInt_eq h⟩
  unfold Cert.CostSpec.oh
  by_cases hc : (cl.val : ℤ) = min 90 (max 0 w.toInt)
  · rw [if_pos hc, IntOp.cmpi_eq.2 (key.2 hc)]
    simp
  · rw [if_neg hc, bit_ne_one _ (fun h => hc (key.1 (IntOp.cmpi_eq.1 h)))]
    simp

/-- A comparison word made a real, at an index. -/
theorem uitofp_cmpi_read {s : Shape} (A B : IVec s 32) (i : s.Idx) :
    uitofp (F := Ideal) (w := 1) .bf16 (cmpi .eq A B) i = (((IntOp.cmpi .eq (A i) (B i)).toNat : ℝ) : EReal) := rfl

/-- The clamped labels at an index. -/
theorem clampV_read (a2 : S1600.Idx → BitVec 32) (h : S_.BroadcastsInDim S1600 (![] : Fin 0 → Fin S1600.rank)) (i : S1600.Idx) :
    minsi (broadcastInDim S1600 ![] h (constantI S_ 32 90#32)) (maxsi (broadcastInDim S1600 ![] h (constantI S_ 32 0#32)) a2) i
      = IntOp.minsi 90#32 (IntOp.maxsi 0#32 (a2 i)) := rfl

/-- The class table at (cl, j). -/
theorem ohV_read (a2 : S1600.Idx → BitVec 32) (cl : Fin 91) (j : Fin 1600) :
    ohV a2 (ix2 cl j) = Cert.CostSpec.oh (a2 (ix1 j)) cl := by
  unfold ohV
  rw [uitofp_cmpi_read, iota_side, label_side, clampV_read]
  exact oh_word (a2 (ix1 j)) cl

/-- The class table as the region finds it, at class cl and target j. -/
theorem V_v9_apply (c : Dev nD) (cl : Fin 91) (j : Fin 1600) :
    (V m c main_v9 : S91x1600.Idx → EReal) (ix2 cl j)
      = Cert.CostSpec.oh ((m ((c : Thread nD τ).loc main_arg2) : S1600.Idx → BitVec 32) (ix1 j)) cl := by
  rw [V_v9_eq]
  exact ohV_read _ cl j

end Cert.KernelIdeal.Hand

end
-- ==== Proof.KGrid.lean ====
/-
  The grid arithmetic of the idealized kernel's one region.

  The region runs over one axis of 30 points. The logits, the predicted boxes and the output move one block of
  480 rows per point: inside block t, row p is row 480 t + p of the 14400-row array, every column kept. The two
  target arrays and the 0/1 class table stay at their one whole block. The thirty output blocks tile the
  14400 x 1600 array: row n lies in block n / 480. The host's last reshape reads row b * 900 + q of that array
  as query (b, q), so the cost matrix with the queries along its rows, reshaped, is the kernel's result array.
-/
import proofs.«417686_j11175504904384_3_alg».proof.Proof.KBase
import proofs.«417686_j11175504904384_3_alg».proof.Proof.CostSpec
import Idealize.ShloMosaic.Lib.Pipeline.Value
import Idealize.ShloMosaic.Lib.ValueIdx

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem lt30 (t : Fin cfg0.N) : t.val < 30 := lt_of_lt_of_eq t.isLt N_0

/-- The cost matrix with the queries along its 14400 rows: row n is query (n / 900, n % 900). -/
def G (c : Dev nD) : S14400x1600.Idx → EReal := fun i =>
  Cert.CostSpec.kernelAt (m ((c : Thread nD τ).loc main_arg0)) (m ((c : Thread nD τ).loc main_arg1))
    (m ((c : Thread nD τ).loc main_arg2)) (m ((c : Thread nD τ).loc main_arg3))
    ⟨(i 0).val / 900, by have h : (i 0).val < 14400 := (i 0).isLt; omega⟩
    ⟨(i 0).val % 900, Nat.mod_lt _ (by norm_num)⟩ (i 1)

theorem hz : (![0, 0] : Fin 2 → Nat) = fun _ => 0 := funext fun a => by fin_cases a <;> rfl

/-- The printed index maps over the grid: the logits, predicted boxes and output move one block of rows per point;
    the target arrays and the class table stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## From a block's index to the array's -/

/-- Row p of the logits' block t is row 480 t + p of the array. -/
theorem emb0 (t : Fin cfg0.N) (p : Fin 480) (k : Fin 91) :
    ((cfg0.win 0).blk t).view.emb (ix2 p k)
      = (ix2 (⟨t.val * 480 + p.val, by have := lt30 t; omega⟩ : Fin 14400) k : S14400x91.Idx) := by
  obtain ⟨e00, e01, -⟩ := idx_facts t
  funext a; apply Fin.ext
  match a with
  | ⟨0, _⟩ => show win0_0.index t (0 : Fin 2) * 480 + 1 * p.val = t.val * 480 + p.val; omega
  | ⟨1, _⟩ => show win0_0.index t (1 : Fin 2) * 91 + 1 * k.val = k.val; omega

/-- Row p of the predicted boxes' block t is row 480 t + p of the array. -/
theorem emb1 (t : Fin cfg0.N) (p : Fin 480) (k : Fin 4) :
    ((cfg0.win 1).blk t).view.emb (ix2 p k)
      = (ix2 (⟨t.val * 480 + p.val, by have := lt30 t; omega⟩ : Fin 14400) k : S14400x4.Idx) := by
  obtain ⟨-, -, e10, e11, -⟩ := idx_facts t
  funext a; apply Fin.ext
  match a with
  | ⟨0, _⟩ => show win0_1.index t (0 : Fin 2) * 480 + 1 * p.val = t.val * 480 + p.val; omega
  | ⟨1, _⟩ => show win0_1.index t (1 : Fin 2) * 4 + 1 * k.val = k.val; omega

/-- The target boxes in centre form are one whole block. -/
theorem emb2 (t : Fin cfg0.N) (k : Fin 4) (q : Fin 1600) :
    ((cfg0.win 2).blk t).view.emb (ix2 k q) = (ix2 k q : S4x1600.Idx) := by
  obtain ⟨-, -, -, -, e20, e21, -⟩ := idx_facts t
  funext a; apply Fin.ext
  match a with
  | ⟨0, _⟩ => show win0_2.index t (0 : Fin 2) * 4 + 1 * k.val = k.val; omega
  | ⟨1, _⟩ => show win0_2.index t (1 : Fin 2) * 1600 + 1 * q.val = q.val; omega

/-- The target boxes in corner form are one whole block. -/
theorem emb3 (t : Fin cfg0.N) (k : Fin 4) (q : Fin 1600) :
    ((cfg0.win 3).blk t).view.emb (ix2 k q) = (ix2 k q : S4x1600.Idx) := by
  obtain ⟨-, -, -, -, -, -, e30, e31, -⟩ := idx_facts t
  funext a; apply Fin.ext
  match a with
  | ⟨0, _⟩ => show win0_3.index t (0 : Fin 2) * 4 + 1 * k.val = k.val; omega
  | ⟨1, _⟩ => show win0_3.index t (1 : Fin 2) * 1600 + 1 * q.val = q.val; omega

/-- The 0/1 class table is one whole block. -/
theorem emb4 (t : Fin cfg0.N) (cl : Fin 91) (q : Fin 1600) :
    ((cfg0.win 4).blk t).view.emb (ix2 cl q) = (ix2 cl q : S91x1600.Idx) := by
  obtain ⟨-, -, -, -, -, -, -, -, e40, e41, -⟩ := idx_facts t
  funext a; apply Fin.ext
  match a with
  | ⟨0, _⟩ => show win0_4.index t (0 : Fin 2) * 91 + 1 * cl.val = cl.val; omega
  | ⟨1, _⟩ => show win0_4.index t (1 : Fin 2) * 1600 + 1 * q.val = q.val; omega

/-- Row p of the output's block t is row 480 t + p of the array. -/
theorem emb5 (t : Fin cfg0.N) (p : Fin 480) (q : Fin 1600) :
    ((cfg0.win 5).blk t).view.emb (ix2 p q)
      = (ix2 (⟨t.val * 480 + p.val, by have := lt30 t; omega⟩ : Fin 14400) q : S14400x1600.Idx) := by
  obtain ⟨-, -, -, -, -, -, -, -, -, -, e50, e51⟩ := idx_facts t
  funext a; apply Fin.ext
  match a with
  | ⟨0, _⟩ => show win0_5.index t (0 : Fin 2) * 480 + 1 * p.val = t.val * 480 + p.val; omega
  | ⟨1, _⟩ => show win0_5.index t (1 : Fin 2) * 1600 + 1 * q.val = q.val; omega

/-! ## The output's blocks tile its array -/

/-- An index of the output array is in point t's block iff each coordinate is in the block's range on its axis. -/
theorem mem_blk5 (t : Fin cfg0.N) (i : S14400x1600.Idx) :
    i ∈ ((cfg0.win 5).blk t).view.set ↔ ∀ a : Fin 2, win0_5.index t a * S480x1600.size a ≤ (i a).val
      ∧ (i a).val < win0_5.index t a * S480x1600.size a + S480x1600.size a := by
  show i ∈ ((View.whole main_v37).slice (win0_5.rect t)).set ↔ _
  rw [View.set_slice_whole, Rect.mem_set_unit]
  exact Iff.rfl

/-- Every index of the output array is in the block of a point that writes back: row n is in block n / 480. -/
theorem cover5 : ∀ i : S14400x1600.Idx, ∃ t : Fin cfg0.N, (cfg0.win 5).flush t = true
    ∧ i ∈ ((cfg0.win 5).blk t).view.set := by
  intro i
  have hi0 : (i 0).val < 14400 := (i 0).isLt
  have hi1 : (i 1).val < 1600 := (i 1).isLt
  obtain ⟨t, ht⟩ : ∃ t : Fin cfg0.N, t.val = (i 0).val / 480 :=
    ⟨⟨(i 0).val / 480, by show (i 0).val / 480 < grid0.N; rw [N_0]; omega⟩, rfl⟩
  obtain ⟨-, -, -, -, -, -, -, -, -, -, e50, e51⟩ := idx_facts t
  refine ⟨t, flush0_5 t, ?_⟩
  rw [mem_blk5]
  intro a
  match a with
  | ⟨0, _⟩ =>
    show win0_5.index t (0 : Fin 2) * 480 ≤ (i 0).val ∧ (i 0).val < win0_5.index t (0 : Fin 2) * 480 + 480
    omega
  | ⟨1, _⟩ =>
    show win0_5.index t (1 : Fin 2) * 1600 ≤ (i 1).val ∧ (i 1).val < win0_5.index t (1 : Fin 2) * 1600 + 1600
    omega

/-! ## The host's last reshape -/

/-- The pair cost at two spellings of one query. -/
theorem kernelAt_congr (A0 : Cert.CostSpec.SLogits.Idx → EReal) (A1 : Cert.CostSpec.SBoxes.Idx → EReal)
    (A2 : Cert.CostSpec.SIds.Idx → BitVec 32) (A3 : Cert.CostSpec.STgt.Idx → EReal)
    {b b' : Fin 16} {q q' : Fin 900} (j : Fin 1600) (hb : b.val = b'.val) (hq : q.val = q'.val) :
    Cert.CostSpec.kernelAt A0 A1 A2 A3 b q j = Cert.CostSpec.kernelAt A0 A1 A2 A3 b' q' j := by
  obtain rfl := Fin.ext hb
  obtain rfl := Fin.ext hq
  rfl

/-- Row b * 900 + q of the cost matrix is query (b, q): reshaped to 16 x 900 x 1600 it is the kernel's result array. -/
theorem res_eq (c : Dev nD) :
    shapeCast _ (G m c) shapeCasts_S14400x1600_S16x900x1600
      = Cert.CostSpec.kernelRes (m ((c : Thread nD τ).loc main_arg0)) (m ((c : Thread nD τ).loc main_arg1))
          (m ((c : Thread nD τ).loc main_arg2)) (m ((c : Thread nD τ).loc main_arg3)) := by
  funext i
  have h0 : (i 0).val < 16 := (i 0).isLt
  have h1 : (i 1).val < 900 := (i 1).isLt
  have h2 : (i 2).val < 1600 := (i 2).isLt
  rw [shapeCast_apply (G m c) shapeCasts_S14400x1600_S16x900x1600 i
    (ix2 (⟨(i 0).val * 900 + (i 1).val, by omega⟩ : Fin 14400) (i 2))
    (by rewrite [Shape.rowMajor_val_two, Shape.rowMajor_val_three]; rfl)]
  unfold G Cert.CostSpec.kernelRes
  exact kernelAt_congr _ _ _ _ (i 2)
    (by show ((i 0).val * 900 + (i 1).val) / 900 = (i 0).val; omega)
    (by show ((i 0).val * 900 + (i 1).val) % 900 = (i 1).val; omega)

end Cert.KernelIdeal.Hand

end
-- ==== Proof.KValue.lean ====
/-
  The idealized kernel's result array as ONE function of the four argument arrays.

  The region's output array has a row per query, 14400 = 16 * 900 of them, in blocks of 480 rows, one block per
  grid point, and a column per target. Point t writes back block t: rows 480 t .. 480 t + 479, all 1600 columns.
  At row 480 t + p, column q the stored value is the pair cost of query n = 480 t + p's predicted box and target
  q's box with the class term summed against the 0/1 class table: each input block is read where the output's
  row says (logits and predicted boxes at row n of their 14400-row arrays; the target arrays and the class table
  whole), and each of those arrays is the host's reshape, transpose, corner form or class table of an argument.
  The thirty blocks tile the array, so it ends holding that function everywhere; the one host operation after the
  region reshapes it to 16 x 900 x 1600, and row b * 900 + q of the reshape is query (b, q).
-/
import proofs.«417686_j11175504904384_3_alg».proof.Proof.KFrame
import proofs.«417686_j11175504904384_3_alg».proof.Proof.KPay
import proofs.«417686_j11175504904384_3_alg».proof.Proof.KHost
import proofs.«417686_j11175504904384_3_alg».proof.Proof.KGrid
import proofs.«417686_j11175504904384_3_alg».proof.Proof.CostSpec
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## Each input block, read where the output's row says -/

/-- The logits block at point t, row p: query 480 t + p's logits. -/
theorem iblk0_apply (c : Dev nD) (t : Fin cfg0.N) (p : Fin 480) (k : Fin 91) :
    iblk m c 0 t (ix2 p k) = (m ((c : Thread nD τ).loc main_arg0) : S16x900x91.Idx → EReal)
      (ix3 ⟨(t.val * 480 + p.val) / 900, by have := lt30 t; omega⟩ ⟨(t.val * 480 + p.val) % 900, Nat.mod_lt _ (by norm_num)⟩ k) := by
  show (V m c main_v0 : S14400x91.Idx → EReal) (((cfg0.win 0).blk t).view.emb (ix2 p k)) = _
  rw [emb0, V_v0_apply]

/-- The predicted-box block at point t, row p: query 480 t + p's box. -/
theorem iblk1_apply (c : Dev nD) (t : Fin cfg0.N) (p : Fin 480) (k : Fin 4) :
    iblk m c 1 t (ix2 p k) = (m ((c : Thread nD τ).loc main_arg1) : S16x900x4.Idx → EReal)
      (ix3 ⟨(t.val * 480 + p.val) / 900, by have := lt30 t; omega⟩ ⟨(t.val * 480 + p.val) % 900, Nat.mod_lt _ (by norm_num)⟩ k) := by
  show (V m c main_v1 : S14400x4.Idx → EReal) (((cfg0.win 1).blk t).view.emb (ix2 p k)) = _
  rw [emb1, V_v1_apply]

/-- The target boxes in centre form, one row per field: the whole transposed array at every point. -/
theorem iblk2_apply (c : Dev nD) (t : Fin cfg0.N) (k : Fin 4) (q : Fin 1600) :
    iblk m c 2 t (ix2 k q) = (m ((c : Thread nD τ).loc main_arg3) : S1600x4.Idx → EReal) (ix2 q k) := by
  show (V m c main_v35 : S4x1600.Idx → EReal) (((cfg0.win 2).blk t).view.emb (ix2 k q)) = _
  rw [emb2, V_v35_apply]

/-- The target boxes in corner form, row k at column q. -/
theorem iblk3_apply (c : Dev nD) (t : Fin cfg0.N) (k : Fin 4) (q : Fin 1600) :
    iblk m c 3 t (ix2 k q) = (V m c main_v36 : S4x1600.Idx → EReal) (ix2 k q) := by
  show (V m c main_v36 : S4x1600.Idx → EReal) (((cfg0.win 3).blk t).view.emb (ix2 k q)) = _
  rw [emb3]

/-- The 0/1 class table at class cl, target q. -/
theorem iblk4_apply (c : Dev nD) (t : Fin cfg0.N) (cl : Fin 91) (q : Fin 1600) :
    iblk m c 4 t (ix2 cl q) = Cert.CostSpec.oh ((m ((c : Thread nD τ).loc main_arg2) : S1600.Idx → BitVec 32) (ix1 q)) cl := by
  show (V m c main_v9 : S91x1600.Idx → EReal) (((cfg0.win 4).blk t).view.emb (ix2 cl q)) = _
  rw [emb4, V_v9_apply]

/-! ## What point t writes back is block t of the cost matrix -/

theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz]
  simp only [View.ld_unit_zero (S := S480x91) hz, View.ld_unit_zero (S := S480x4) hz,
    View.ld_unit_zero (S := S4x1600) hz, View.ld_unit_zero (S := S91x1600) hz]
  funext y
  obtain ⟨p, q, rfl⟩ : ∃ (p : Fin 480) (q : Fin 1600), y = ix2 p q := ⟨y 0, y 1, eq_ix2 y⟩
  show body (F := Ideal) (iblk m c 0 t) (iblk m c 1 t) (iblk m c 2 t) (iblk m c 3 t) (iblk m c 4 t) (ix2 p q)
    = G m c (((cfg0.win 5).blk t).view.emb (ix2 p q))
  refine (body_apply (iblk m c 0 t) (iblk m c 1 t) (iblk m c 2 t) (iblk m c 3 t) (iblk m c 4 t) p q).trans ?_
  rw [emb5]
  simp only [iblk0_apply, iblk1_apply, iblk2_apply, iblk3_apply, iblk4_apply,
    (V_v36_apply m c q).1, (V_v36_apply m c q).2.1, (V_v36_apply m c q).2.2.1, (V_v36_apply m c q).2.2.2]
  rfl

/-- The output array after the run. -/
theorem final5 (c : Dev nD) : (dats m 0 c).arrAt 5 cfg0.N = G m c :=
  (dats m 0 c).arrAt_eq_of_cover 5 (G m c) (fun t _ => flushed_eq m c t) cover5

/-! ## The reshape after the region, and the run -/

/-- The program's result buffer after the host operation that follows the region. -/
theorem tail_v38 (c : Dev nD) :
    Pipeline.afterTail₀ cfgs (dats m) 0 (V0 m) [hostOps1] c main_v38
      = Cert.CostSpec.kernelRes (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v38) = _
  after_results
  rw [Pipeline.withArrays_arr spec0 launch0.win.arr_inj c _ _ 5, final5]
  exact res_eq m c

/-- Every weakly fair execution of the idealized kernel's @main terminates with the result buffer at the cost
    matrix of the argument arrays and the arguments unchanged. -/
theorem run : θ_run defs (onTc (τ := τ) (main (F := Ideal))) ⟨m, fun _ => 0, ρ⟩ fun r => ∀ c : Dev nD,
      r.2.mem ((c.tc : Thread nD τ).loc main_v38)
        = Cert.CostSpec.kernelRes (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v38 (Pipeline.mem_restRefs_of main_v38 (by decide) (by decide))).trans (tail_v38 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.RefValue.lean ====
import proofs.«417686_j11175504904384_3_alg».proof.Proof.Gen.ReferenceIdeal.Run
import proofs.«417686_j11175504904384_3_alg».proof.Proof.Gen.ReferenceIdeal.Read
import proofs.«417686_j11175504904384_3_alg».proof.Proof.CostSpec
import Idealize.ShloMosaic.Lib.ValueIdx
import Idealize.ShloMosaic.Lib.Pipeline.Value
import Idealize.ShloMosaic.PureOps.Ideal.Laws
import Mathlib.Algebra.BigOperators.Fin

/-
  The reference's result array, index by index, over the extended reals.

  The reference flattens the 16 x 900 queries to 14400 rows, computes three 14400 x 1600 tables (the L1 distance of
  the boxes in centre form, the focal class feature of the target's class, the negated GIoU of the boxes in corner
  form), adds them and folds the rows back to 16 x 900. Read at (b, q, j) with row n = b * 900 + q:
   * a box's corners are the centre form's near and far sides, column by column of the joined corner array;
   * the areas, the overlap and the enclosing box are read off the corners;
   * the class column of target j is its label itself when the label lies in [0, 91): the comparison with zero
     fails, the selection keeps the label and the clamp of the start index does not bind;
   * row n of a flattened array is (n / 900, n % 900) of the array it came from.
-/

noncomputable section

open scoped BigOperators

namespace Cert.ReferenceIdeal.RefValue

open Cert.ReferenceIdeal Cert.ReferenceIdeal.Gen Cert.ReferenceIdeal.Read Cert.CostSpec
open Idealize.ShloMosaic Idealize.ShloMosaic.ValueIdx

/-! ## Four columns joined along the second axis, read in one column: that piece -/

theorem cat4_0 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] (⟨2, ![N, 4]⟩ : Shape) 1) (n : Fin N) :
    concatenate (⟨2, ![N, 4]⟩ : Shape) 1 ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (0 : Fin 4))
      = y0 (ix2 n (0 : Fin 1)) :=
  concatenate_apply_piece (1 : Fin (⟨2, ![N, 4]⟩ : Shape).rank)
    ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (0 : Fin 4)) 0 (by show 0 < 4; omega) _ y0 rfl rfl 0 rfl (ix2 n (0 : Fin 1))
    (fun b hb => by match b with | ⟨0, _⟩ => rfl | ⟨1, _⟩ => exact absurd rfl hb) rfl

theorem cat4_1 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] (⟨2, ![N, 4]⟩ : Shape) 1) (n : Fin N) :
    concatenate (⟨2, ![N, 4]⟩ : Shape) 1 ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (1 : Fin 4))
      = y1 (ix2 n (0 : Fin 1)) :=
  concatenate_apply_piece (1 : Fin (⟨2, ![N, 4]⟩ : Shape).rank)
    ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (1 : Fin 4)) 1 (by show 1 < 4; omega) _ y1 rfl rfl 1 rfl (ix2 n (0 : Fin 1))
    (fun b hb => by match b with | ⟨0, _⟩ => rfl | ⟨1, _⟩ => exact absurd rfl hb) rfl

theorem cat4_2 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] (⟨2, ![N, 4]⟩ : Shape) 1) (n : Fin N) :
    concatenate (⟨2, ![N, 4]⟩ : Shape) 1 ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (2 : Fin 4))
      = y2 (ix2 n (0 : Fin 1)) :=
  concatenate_apply_piece (1 : Fin (⟨2, ![N, 4]⟩ : Shape).rank)
    ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (2 : Fin 4)) 2 (by show 2 < 4; omega) _ y2 rfl rfl 2 rfl (ix2 n (0 : Fin 1))
    (fun b hb => by match b with | ⟨0, _⟩ => rfl | ⟨1, _⟩ => exact absurd rfl hb) rfl

theorem cat4_3 {α : Type} {N : Nat} (y0 y1 y2 y3 : (⟨2, ![N, 1]⟩ : Shape).Idx → α)
    (h : Shape.Concatenates [(⟨2, ![N, 1]⟩ : Shape), ⟨2, ![N, 1]⟩, ⟨2, ![N, 1]⟩, ⟨2, ![N, 1]⟩] (⟨2, ![N, 4]⟩ : Shape) 1) (n : Fin N) :
    concatenate (⟨2, ![N, 4]⟩ : Shape) 1 ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (3 : Fin 4))
      = y3 (ix2 n (0 : Fin 1)) :=
  concatenate_apply_piece (1 : Fin (⟨2, ![N, 4]⟩ : Shape).rank)
    ([⟨⟨2, ![N, 1]⟩, y0⟩, ⟨⟨2, ![N, 1]⟩, y1⟩, ⟨⟨2, ![N, 1]⟩, y2⟩, ⟨⟨2, ![N, 1]⟩, y3⟩] : List ((s : Shape) × (s.Idx → α))) h (ix2 n (3 : Fin 4)) 3 (by show 3 < 4; omega) _ y3 rfl rfl 3 rfl (ix2 n (0 : Fin 1))
    (fun b hb => by match b with | ⟨0, _⟩ => rfl | ⟨1, _⟩ => exact absurd rfl hb) rfl

/-! ## The gather of one class column per target -/

/-- Result element (n, j) of the gather is the operand at row n and the column that start index j names, read signed
    and clamped into [0, 90]. -/
theorem gather_col {α : Type} (x : S14400x91.Idx → α) (idx : IVec S1600x1 32) (n : Fin 14400) (j : Fin 1600) :
    Host.gather gather_S14400x91_S1600x1_S14400x1600_0_1_n_n_1_1_144001 x idx (ix2 n j)
      = x (ix2 n ⟨min (idx (ix2 j (0 : Fin 1))).toInt.toNat 90, by omega⟩) := by
  unfold Host.gather
  congr 1
  funext a
  refine Fin.ext ?_
  match a with
  | ⟨0, _⟩ =>
    show gather_S14400x91_S1600x1_S14400x1600_0_1_n_n_1_1_144001.start (ix2 n j) idx (0 : Fin S14400x91.rank)
      + gather_S14400x91_S1600x1_S14400x1600_0_1_n_n_1_1_144001.batchCoord (ix2 n j) (0 : Fin S14400x91.rank)
      + gather_S14400x91_S1600x1_S14400x1600_0_1_n_n_1_1_144001.offCoord (ix2 n j) (0 : Fin S14400x91.rank) = n.val
    rw [GatherDims.batchCoord_eq_zero _ _ _ List.not_mem_nil]
    unfold GatherDims.start GatherDims.offCoord
    rw [dif_neg (show ¬ (0 : Fin S14400x91.rank) ∈ gather_S14400x91_S1600x1_S14400x1600_0_1_n_n_1_1_144001.startIndexMap by decide),
      dif_pos (show (0 : Fin S14400x91.rank) ∈ gather_S14400x91_S1600x1_S14400x1600_0_1_n_n_1_1_144001.sKept by decide)]
    simp only [Nat.zero_add]
    rfl
  | ⟨1, _⟩ =>
    show gather_S14400x91_S1600x1_S14400x1600_0_1_n_n_1_1_144001.start (ix2 n j) idx (1 : Fin S14400x91.rank)
      + gather_S14400x91_S1600x1_S14400x1600_0_1_n_n_1_1_144001.batchCoord (ix2 n j) (1 : Fin S14400x91.rank)
      + gather_S14400x91_S1600x1_S14400x1600_0_1_n_n_1_1_144001.offCoord (ix2 n j) (1 : Fin S14400x91.rank)
      = min (idx (ix2 j (0 : Fin 1))).toInt.toNat 90
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin S14400x91.rank) ∈ gather_S14400x91_S1600x1_S14400x1600_0_1_n_n_1_1_144001.startIndexMap from List.mem_singleton.mpr rfl)]
    have hsi : gather_S14400x91_S1600x1_S14400x1600_0_1_n_n_1_1_144001.siIdx (ix2 n j)
        ⟨List.idxOf (1 : Fin S14400x91.rank) gather_S14400x91_S1600x1_S14400x1600_0_1_n_n_1_1_144001.startIndexMap,
          List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl

/-- A label that is not negative passes the selection on "label < 0" unchanged. -/
theorem label_keep (a : BitVec 32) (h : 0 ≤ a.toInt) (u : BitVec 32) : Scalar.select (IntOp.cmpi .slt a 0#32) u a = a := by
  have hne : ¬ IntOp.cmpi .slt a 0#32 = 1#1 := fun hh => by
    have := IntOp.cmpi_slt.mp hh
    rw [BitVec.toInt_zero] at this
    omega
  rw [eq_zero_of_ne_one hne, select_zero]

/-! ## The pieces of one pair's cost, over a predicted box c and a target box t in centre form (cx, cy, w, h) -/

def areaOf (c : Fin 4 → EReal) : EReal := (hi (c 0) (c 2) - lo (c 0) (c 2)) * (hi (c 1) (c 3) - lo (c 1) (c 3))

def interOf (c t : Fin 4 → EReal) : EReal :=
  max k0 (min (hi (c 0) (c 2)) (hi (t 0) (t 2)) - max (lo (c 0) (c 2)) (lo (t 0) (t 2)))
    * max k0 (min (hi (c 1) (c 3)) (hi (t 1) (t 3)) - max (lo (c 1) (c 3)) (lo (t 1) (t 3)))

def unionOf (c t : Fin 4 → EReal) : EReal := (areaOf c + areaOf t) - interOf c t

def enclOf (c t : Fin 4 → EReal) : EReal :=
  max k0 (max (hi (c 0) (c 2)) (hi (t 0) (t 2)) - min (lo (c 0) (c 2)) (lo (t 0) (t 2)))
    * max k0 (max (hi (c 1) (c 3)) (hi (t 1) (t 3)) - min (lo (c 1) (c 3)) (lo (t 1) (t 3)))

def l1Of (c t : Fin 4 → EReal) : EReal := k0 + (absE (c 0 - t 0) + absE (c 1 - t 1) + absE (c 2 - t 2) + absE (c 3 - t 3))

def costOf (c t : Fin 4 → EReal) (cls : EReal) : EReal :=
  ((k1 * l1Of c t) + (k1 * cls))
    + (k1 * (-(Ideal.div (interOf c t) (unionOf c t) - Ideal.div (enclOf c t - unionOf c t) (enclOf c t))))

/-- These pieces put together are the reference's pair cost. -/
theorem costOf_eq (c t : Fin 4 → EReal) (cls : EReal) :
    costOf c t cls = pairR (c 0) (c 1) (c 2) (c 3) (t 0) (t 1) (t 2) (t 3) cls := rfl

/-! ## Rows of the flattened arrays -/

theorem row_lt (b : Fin 16) (q : Fin 900) : b.val * 900 + q.val < 14400 := by
  have := b.isLt; have := q.isLt; omega

/-- The row of batch b and query q. -/
def row (b : Fin 16) (q : Fin 900) : Fin 14400 := ⟨b.val * 900 + q.val, row_lt b q⟩

theorem div_row (n : Fin 14400) (j : Fin 1600) : (n.val * 1600 + j.val) / 1600 = n.val := by
  have := j.isLt; omega

theorem mod_row (n : Fin 14400) (j : Fin 1600) : (n.val * 1600 + j.val) / 1 % 1600 = j.val := by
  have := j.isLt; omega

theorem idx177 (b : Fin 16) (q : Fin 900) (j : Fin 1600) : idx_main_v177 (ix3 b q j) = ix2 (row b q) j := by
  funext a
  match a with
  | ⟨0, _⟩ =>
    refine Fin.ext ?_
    show ((b.val * 900 + q.val) * 1600 + j.val) / 1600 = b.val * 900 + q.val
    have := j.isLt; omega
  | ⟨1, _⟩ =>
    refine Fin.ext ?_
    show ((b.val * 900 + q.val) * 1600 + j.val) % 1600 = j.val
    have := j.isLt; omega

theorem idx7_row (b : Fin 16) (q : Fin 900) (k : Fin 4) : idx_main_v7 (ix2 (row b q) k) = ix3 b q k := by
  funext a
  match a with
  | ⟨0, _⟩ =>
    refine Fin.ext ?_
    show ((b.val * 900 + q.val) * 4 + k.val) / 3600 = b.val
    have := b.isLt; have := q.isLt; have := k.isLt; omega
  | ⟨1, _⟩ =>
    refine Fin.ext ?_
    show ((b.val * 900 + q.val) * 4 + k.val) / 4 % 900 = q.val
    have := b.isLt; have := q.isLt; have := k.isLt; omega
  | ⟨2, _⟩ =>
    refine Fin.ext ?_
    show ((b.val * 900 + q.val) * 4 + k.val) % 4 = k.val
    have := k.isLt; omega

theorem idx0_row (b : Fin 16) (q : Fin 900) (c : Fin 91) : idx_main_v0 (ix2 (row b q) c) = ix3 b q c := by
  funext a
  match a with
  | ⟨0, _⟩ =>
    refine Fin.ext ?_
    show ((b.val * 900 + q.val) * 91 + c.val) / 81900 = b.val
    have := b.isLt; have := q.isLt; have := c.isLt; omega
  | ⟨1, _⟩ =>
    refine Fin.ext ?_
    show ((b.val * 900 + q.val) * 91 + c.val) / 91 % 900 = q.val
    have := b.isLt; have := q.isLt; have := c.isLt; omega
  | ⟨2, _⟩ =>
    refine Fin.ext ?_
    show ((b.val * 900 + q.val) * 91 + c.val) % 91 = c.val
    have := c.isLt; omega

/-! ## The predicted boxes: centre form, corners, area (row n of the 14400) -/

section Pred

variable (x1 : (⟨S16x900x4, .f32⟩ : BufTy).Contents (Elt Ideal))

/-- Predicted box n in centre form: row n of the flattened boxes. -/
def pc (n : Fin 14400) : Fin 4 → EReal := fun k => val_main_v7 (F := Ideal) x1 (ix2 n k)

theorem pcx (n : Fin 14400) : val_main_v45 (F := Ideal) x1 (ix1 n) = pc x1 n 0 := by
  show _ = val_main_v7 (F := Ideal) x1 (ix2 n (0 : Fin 4))
  rw [val_main_v45_apply, val_main_v44_apply]
  congr 1
  funext a
  match a with
  | ⟨0, _⟩ => exact Fin.ext (Nat.div_one n.val)
  | ⟨1, _⟩ => rfl

theorem pcy (n : Fin 14400) : val_main_v47 (F := Ideal) x1 (ix1 n) = pc x1 n 1 := by
  show _ = val_main_v7 (F := Ideal) x1 (ix2 n (1 : Fin 4))
  rw [val_main_v47_apply, val_main_v46_apply]
  congr 1
  funext a
  match a with
  | ⟨0, _⟩ => exact Fin.ext (Nat.div_one n.val)
  | ⟨1, _⟩ => rfl

theorem pw (n : Fin 14400) : val_main_v49 (F := Ideal) x1 (ix1 n) = pc x1 n 2 := by
  show _ = val_main_v7 (F := Ideal) x1 (ix2 n (2 : Fin 4))
  rw [val_main_v49_apply, val_main_v48_apply]
  congr 1
  funext a
  match a with
  | ⟨0, _⟩ => exact Fin.ext (Nat.div_one n.val)
  | ⟨1, _⟩ => rfl

theorem ph (n : Fin 14400) : val_main_v51 (F := Ideal) x1 (ix1 n) = pc x1 n 3 := by
  show _ = val_main_v7 (F := Ideal) x1 (ix2 n (3 : Fin 4))
  rw [val_main_v51_apply, val_main_v50_apply]
  congr 1
  funext a
  match a with
  | ⟨0, _⟩ => exact Fin.ext (Nat.div_one n.val)
  | ⟨1, _⟩ => rfl

theorem px1 (n : Fin 14400) : val_main_v54 (F := Ideal) x1 (ix1 n) = lo (pc x1 n 0) (pc x1 n 2) := by
  rw [val_main_v54_apply, val_main_v53_apply, val_main_v52_apply, val_main_cst_10_apply, pcx, pw]
  rfl

theorem py1 (n : Fin 14400) : val_main_v57 (F := Ideal) x1 (ix1 n) = lo (pc x1 n 1) (pc x1 n 3) := by
  rw [val_main_v57_apply, val_main_v56_apply, val_main_v55_apply, val_main_cst_11_apply, pcy, ph]
  rfl

theorem px2 (n : Fin 14400) : val_main_v60 (F := Ideal) x1 (ix1 n) = hi (pc x1 n 0) (pc x1 n 2) := by
  rw [val_main_v60_apply, val_main_v59_apply, val_main_v58_apply, val_main_cst_12_apply, pcx, pw]
  rfl

theorem py2 (n : Fin 14400) : val_main_v63 (F := Ideal) x1 (ix1 n) = hi (pc x1 n 1) (pc x1 n 3) := by
  rw [val_main_v63_apply, val_main_v62_apply, val_main_v61_apply, val_main_cst_13_apply, pcy, ph]
  rfl

/-- The corner array's four columns: near x, near y, far x, far y. -/
theorem pbox0 (n : Fin 14400) : val_main_v68 (F := Ideal) x1 (ix2 n (0 : Fin 4)) = lo (pc x1 n 0) (pc x1 n 2) := by
  unfold val_main_v68
  rw [cat4_0, val_main_v64_apply,
    show idx_main_v64 (ix2 n (0 : Fin 1)) = ix1 n from funext fun a => by match a with | ⟨0, _⟩ => rfl, px1]

theorem pbox1 (n : Fin 14400) : val_main_v68 (F := Ideal) x1 (ix2 n (1 : Fin 4)) = lo (pc x1 n 1) (pc x1 n 3) := by
  unfold val_main_v68
  rw [cat4_1, val_main_v65_apply,
    show idx_main_v65 (ix2 n (0 : Fin 1)) = ix1 n from funext fun a => by match a with | ⟨0, _⟩ => rfl, py1]

theorem pbox2 (n : Fin 14400) : val_main_v68 (F := Ideal) x1 (ix2 n (2 : Fin 4)) = hi (pc x1 n 0) (pc x1 n 2) := by
  unfold val_main_v68
  rw [cat4_2, val_main_v66_apply,
    show idx_main_v66 (ix2 n (0 : Fin 1)) = ix1 n from funext fun a => by match a with | ⟨0, _⟩ => rfl, px2]

theorem pbox3 (n : Fin 14400) : val_main_v68 (F := Ideal) x1 (ix2 n (3 : Fin 4)) = hi (pc x1 n 1) (pc x1 n 3) := by
  unfold val_main_v68
  rw [cat4_3, val_main_v67_apply,
    show idx_main_v67 (ix2 n (0 : Fin 1)) = ix1 n from funext fun a => by match a with | ⟨0, _⟩ => rfl, py2]

theorem pcol2 (n : Fin 14400) : val_main_v95 (F := Ideal) x1 (ix1 n) = val_main_v68 (F := Ideal) x1 (ix2 n (2 : Fin 4)) := by
  rw [val_main_v95_apply, val_main_v94_apply]
  congr 1
  funext a
  match a with
  | ⟨0, _⟩ => exact Fin.ext (Nat.div_one n.val)
  | ⟨1, _⟩ => rfl

theorem pcol0 (n : Fin 14400) : val_main_v97 (F := Ideal) x1 (ix1 n) = val_main_v68 (F := Ideal) x1 (ix2 n (0 : Fin 4)) := by
  rw [val_main_v97_apply, val_main_v96_apply]
  congr 1
  funext a
  match a with
  | ⟨0, _⟩ => exact Fin.ext (Nat.div_one n.val)
  | ⟨1, _⟩ => rfl

theorem pcol3 (n : Fin 14400) : val_main_v100 (F := Ideal) x1 (ix1 n) = val_main_v68 (F := Ideal) x1 (ix2 n (3 : Fin 4)) := by
  rw [val_main_v100_apply, val_main_v99_apply]
  congr 1
  funext a
  match a with
  | ⟨0, _⟩ => exact Fin.ext (Nat.div_one n.val)
  | ⟨1, _⟩ => rfl

theorem pcol1 (n : Fin 14400) : val_main_v102 (F := Ideal) x1 (ix1 n) = val_main_v68 (F := Ideal) x1 (ix2 n (1 : Fin 4)) := by
  rw [val_main_v102_apply, val_main_v101_apply]
  congr 1
  funext a
  match a with
  | ⟨0, _⟩ => exact Fin.ext (Nat.div_one n.val)
  | ⟨1, _⟩ => rfl

/-- The predicted box's area, off its corners. -/
theorem parea (n : Fin 14400) : val_main_v104 (F := Ideal) x1 (ix1 n) = areaOf (pc x1 n) := by
  rw [val_main_v104_apply, val_main_v98_apply, val_main_v103_apply, pcol2, pcol0, pcol3, pcol1, pbox2, pbox0, pbox3, pbox1]
  rfl

end Pred

/-! ## The target boxes: centre form, corners, area (target j of the 1600) -/

section Tgt

variable (x3 : (⟨S1600x4, .f32⟩ : BufTy).Contents (Elt Ideal))

/-- Target box j in centre form. -/
def tc (j : Fin 1600) : Fin 4 → EReal := fun k => x3 (ix2 j k)

theorem tcx (j : Fin 1600) : val_main_v70 (F := Ideal) x3 (ix1 j) = tc x3 j 0 := by
  show _ = x3 (ix2 j (0 : Fin 4))
  rw [val_main_v70_apply, val_main_v69_apply]
  congr 1
  funext a
  match a with
  | ⟨0, _⟩ => exact Fin.ext (Nat.div_one j.val)
  | ⟨1, _⟩ => rfl

theorem tcy (j : Fin 1600) : val_main_v72 (F := Ideal) x3 (ix1 j) = tc x3 j 1 := by
  show _ = x3 (ix2 j (1 : Fin 4))
  rw [val_main_v72_apply, val_main_v71_apply]
  congr 1
  funext a
  match a with
  | ⟨0, _⟩ => exact Fin.ext (Nat.div_one j.val)
  | ⟨1, _⟩ => rfl

theorem tw (j : Fin 1600) : val_main_v74 (F := Ideal) x3 (ix1 j) = tc x3 j 2 := by
  show _ = x3 (ix2 j (2 : Fin 4))
  rw [val_main_v74_apply, val_main_v73_apply]
  congr 1
  funext a
  match a with
  | ⟨0, _⟩ => exact Fin.ext (Nat.div_one j.val)
  | ⟨1, _⟩ => rfl

theorem th (j : Fin 1600) : val_main_v76 (F := Ideal) x3 (ix1 j) = tc x3 j 3 := by
  show _ = x3 (ix2 j (3 : Fin 4))
  rw [val_main_v76_apply, val_main_v75_apply]
  congr 1
  funext a
  match a with
  | ⟨0, _⟩ => exact Fin.ext (Nat.div_one j.val)
  | ⟨1, _⟩ => rfl

theorem tx1 (j : Fin 1600) : val_main_v79 (F := Ideal) x3 (ix1 j) = lo (tc x3 j 0) (tc x3 j 2) := by
  rw [val_main_v79_apply, val_main_v78_apply, val_main_v77_apply, val_main_cst_14_apply, tcx, tw]
  rfl

theorem ty1 (j : Fin 1600) : val_main_v82 (F := Ideal) x3 (ix1 j) = lo (tc x3 j 1) (tc x3 j 3) := by
  rw [val_main_v82_apply, val_main_v81_apply, val_main_v80_apply, val_main_cst_15_apply, tcy, th]
  rfl

theorem tx2 (j : Fin 1600) : val_main_v85 (F := Ideal) x3 (ix1 j) = hi (tc x3 j 0) (tc x3 j 2) := by
  rw [val_main_v85_apply, val_main_v84_apply, val_main_v83_apply, val_main_cst_16_apply, tcx, tw]
  rfl

theorem ty2 (j : Fin 1600) : val_main_v88 (F := Ideal) x3 (ix1 j) = hi (tc x3 j 1) (tc x3 j 3) := by
  rw [val_main_v88_apply, val_main_v87_apply, val_main_v86_apply, val_main_cst_17_apply, tcy, th]
  rfl

theorem tbox0 (j : Fin 1600) : val_main_v93 (F := Ideal) x3 (ix2 j (0 : Fin 4)) = lo (tc x3 j 0) (tc x3 j 2) := by
  unfold val_main_v93
  rw [cat4_0, val_main_v89_apply,
    show idx_main_v89 (ix2 j (0 : Fin 1)) = ix1 j from funext fun a => by match a with | ⟨0, _⟩ => rfl, tx1]

theorem tbox1 (j : Fin 1600) : val_main_v93 (F := Ideal) x3 (ix2 j (1 : Fin 4)) = lo (tc x3 j 1) (tc x3 j 3) := by
  unfold val_main_v93
  rw [cat4_1, val_main_v90_apply,
    show idx_main_v90 (ix2 j (0 : Fin 1)) = ix1 j from funext fun a => by match a with | ⟨0, _⟩ => rfl, ty1]

theorem tbox2 (j : Fin 1600) : val_main_v93 (F := Ideal) x3 (ix2 j (2 : Fin 4)) = hi (tc x3 j 0) (tc x3 j 2) := by
  unfold val_main_v93
  rw [cat4_2, val_main_v91_apply,
    show idx_main_v91 (ix2 j (0 : Fin 1)) = ix1 j from funext fun a => by match a with | ⟨0, _⟩ => rfl, tx2]

theorem tbox3 (j : Fin 1600) : val_main_v93 (F := Ideal) x3 (ix2 j (3 : Fin 4)) = hi (tc x3 j 1) (tc x3 j 3) := by
  unfold val_main_v93
  rw [cat4_3, val_main_v92_apply,
    show idx_main_v92 (ix2 j (0 : Fin 1)) = ix1 j from funext fun a => by match a with | ⟨0, _⟩ => rfl, ty2]

theorem tcol2 (j : Fin 1600) : val_main_v106 (F := Ideal) x3 (ix1 j) = val_main_v93 (F := Ideal) x3 (ix2 j (2 : Fin 4)) := by
  rw [val_main_v106_apply, val_main_v105_apply]
  congr 1
  funext a
  match a with
  | ⟨0, _⟩ => exact Fin.ext (Nat.div_one j.val)
  | ⟨1, _⟩ => rfl

theorem tcol0 (j : Fin 1600) : val_main_v108 (F := Ideal) x3 (ix1 j) = val_main_v93 (F := Ideal) x3 (ix2 j (0 : Fin 4)) := by
  rw [val_main_v108_apply, val_main_v107_apply]
  congr 1
  funext a
  match a with
  | ⟨0, _⟩ => exact Fin.ext (Nat.div_one j.val)
  | ⟨1, _⟩ => rfl

theorem tcol3 (j : Fin 1600) : val_main_v111 (F := Ideal) x3 (ix1 j) = val_main_v93 (F := Ideal) x3 (ix2 j (3 : Fin 4)) := by
  rw [val_main_v111_apply, val_main_v110_apply]
  congr 1
  funext a
  match a with
  | ⟨0, _⟩ => exact Fin.ext (Nat.div_one j.val)
  | ⟨1, _⟩ => rfl

theorem tcol1 (j : Fin 1600) : val_main_v113 (F := Ideal) x3 (ix1 j) = val_main_v93 (F := Ideal) x3 (ix2 j (1 : Fin 4)) := by
  rw [val_main_v113_apply, val_main_v112_apply]
  congr 1
  funext a
  match a with
  | ⟨0, _⟩ => exact Fin.ext (Nat.div_one j.val)
  | ⟨1, _⟩ => rfl

/-- The target box's area, off its corners. -/
theorem tarea (j : Fin 1600) : val_main_v115 (F := Ideal) x3 (ix1 j) = areaOf (tc x3 j) := by
  rw [val_main_v115_apply, val_main_v109_apply, val_main_v114_apply, tcol2, tcol0, tcol3, tcol1, tbox2, tbox0, tbox3, tbox1]
  rfl

end Tgt

/-! ## One (row, target) pair -/

section Pair

variable (x1 : (⟨S16x900x4, .f32⟩ : BufTy).Contents (Elt Ideal)) (x3 : (⟨S1600x4, .f32⟩ : BufTy).Contents (Elt Ideal))

/-- One term of the L1 distance: component k of |predicted - target|. -/
theorem abs_at (n : Fin 14400) (j : Fin 1600) (k : Fin 4) :
    val_main_v42 (F := Ideal) x1 x3 (idx_main_v43 (ix2 n j) k) = absE (pc x1 n k - tc x3 j k) := by
  rw [val_main_v42_apply, val_main_v41_apply, val_main_v39_apply, val_main_v37_apply, val_main_v40_apply, val_main_v38_apply,
    show idx_main_v37 (idx_main_v39 (idx_main_v43 (ix2 n j) k)) = ix2 n k from
      funext fun a => by match a with | ⟨0, _⟩ => rfl | ⟨1, _⟩ => rfl,
    show idx_main_v38 (idx_main_v40 (idx_main_v43 (ix2 n j) k)) = ix2 j k from
      funext fun a => by match a with | ⟨0, _⟩ => rfl | ⟨1, _⟩ => rfl]
  rfl

/-- The L1 distance of the two boxes in centre form: the sum over the four components, from zero. -/
theorem l1_at (n : Fin 14400) (j : Fin 1600) : val_main_v43 (F := Ideal) x1 x3 (ix2 n j) = l1Of (pc x1 n) (tc x3 j) := by
  rw [val_main_v43_apply, Fin.sum_univ_four, abs_at, abs_at, abs_at, abs_at, val_main_cst_9_apply]
  rfl

/-- The clipped overlap of the two boxes along x. -/
theorem ovl0 (n : Fin 14400) (j : Fin 1600) : val_main_v131 (F := Ideal) x1 x3 (ix3 n j (0 : Fin 2))
    = max k0 (min (hi (pc x1 n 0) (pc x1 n 2)) (hi (tc x3 j 0) (tc x3 j 2)) - max (lo (pc x1 n 0) (pc x1 n 2)) (lo (tc x3 j 0) (tc x3 j 2))) := by
  rw [val_main_v131_apply, val_main_call0_v1_apply, val_main_call0_v0_apply, val_main_cst_18_apply, val_main_v130_apply,
    val_main_v129_apply, val_main_v122_apply,
    val_main_v127_apply, val_main_v124_apply, val_main_v123_apply, val_main_v128_apply, val_main_v126_apply, val_main_v125_apply,
    val_main_v120_apply, val_main_v117_apply, val_main_v116_apply, val_main_v121_apply, val_main_v119_apply, val_main_v118_apply,
    show idx_main_v123 (idx_main_v124 (idx_main_v127 (ix3 n j (0 : Fin 2)))) = ix2 n (2 : Fin 4) from
      funext fun a => by match a with | ⟨0, _⟩ => rfl | ⟨1, _⟩ => rfl,
    show idx_main_v125 (idx_main_v126 (idx_main_v128 (ix3 n j (0 : Fin 2)))) = ix2 j (2 : Fin 4) from
      funext fun a => by match a with | ⟨0, _⟩ => rfl | ⟨1, _⟩ => rfl,
    show idx_main_v116 (idx_main_v117 (idx_main_v120 (ix3 n j (0 : Fin 2)))) = ix2 n (0 : Fin 4) from
      funext fun a => by match a with | ⟨0, _⟩ => rfl | ⟨1, _⟩ => rfl,
    show idx_main_v118 (idx_main_v119 (idx_main_v121 (ix3 n j (0 : Fin 2)))) = ix2 j (0 : Fin 4) from
      funext fun a => by match a with | ⟨0, _⟩ => rfl | ⟨1, _⟩ => rfl,
    pbox2, tbox2, pbox0, tbox0]
  rfl

/-- The clipped overlap of the two boxes along y. -/
theorem ovl1 (n : Fin 14400) (j : Fin 1600) : val_main_v131 (F := Ideal) x1 x3 (ix3 n j (1 : Fin 2))
    = max k0 (min (hi (pc x1 n 1) (pc x1 n 3)) (hi (tc x3 j 1) (tc x3 j 3)) - max (lo (pc x1 n 1) (pc x1 n 3)) (lo (tc x3 j 1) (tc x3 j 3))) := by
  rw [val_main_v131_apply, val_main_call0_v1_apply, val_main_call0_v0_apply, val_main_cst_18_apply, val_main_v130_apply,
    val_main_v129_apply, val_main_v122_apply,
    val_main_v127_apply, val_main_v124_apply, val_main_v123_apply, val_main_v128_apply, val_main_v126_apply, val_main_v125_apply,
    val_main_v120_apply, val_main_v117_apply, val_main_v116_apply, val_main_v121_apply, val_main_v119_apply, val_main_v118_apply,
    show idx_main_v123 (idx_main_v124 (idx_main_v127 (ix3 n j (1 : Fin 2)))) = ix2 n (3 : Fin 4) from
      funext fun a => by match a with | ⟨0, _⟩ => rfl | ⟨1, _⟩ => rfl,
    show idx_main_v125 (idx_main_v126 (idx_main_v128 (ix3 n j (1 : Fin 2)))) = ix2 j (3 : Fin 4) from
      funext fun a => by match a with | ⟨0, _⟩ => rfl | ⟨1, _⟩ => rfl,
    show idx_main_v116 (idx_main_v117 (idx_main_v120 (ix3 n j (1 : Fin 2)))) = ix2 n (1 : Fin 4) from
      funext fun a => by match a with | ⟨0, _⟩ => rfl | ⟨1, _⟩ => rfl,
    show idx_main_v118 (idx_main_v119 (idx_main_v121 (ix3 n j (1 : Fin 2)))) = ix2 j (1 : Fin 4) from
      funext fun a => by match a with | ⟨0, _⟩ => rfl | ⟨1, _⟩ => rfl,
    pbox3, tbox3, pbox1, tbox1]
  rfl

/-- The clipped side of the enclosing box along x. -/
theorem enc0 (n : Fin 14400) (j : Fin 1600) : val_main_v159 (F := Ideal) x1 x3 (ix3 n j (0 : Fin 2))
    = max k0 (max (hi (pc x1 n 0) (pc x1 n 2)) (hi (tc x3 j 0) (tc x3 j 2)) - min (lo (pc x1 n 0) (pc x1 n 2)) (lo (tc x3 j 0) (tc x3 j 2))) := by
  rw [val_main_v159_apply, val_main_call1_v1_apply, val_main_call1_v0_apply, val_main_cst_19_apply, val_main_v158_apply,
    val_main_v157_apply, val_main_v150_apply,
    val_main_v155_apply, val_main_v152_apply, val_main_v151_apply, val_main_v156_apply, val_main_v154_apply, val_main_v153_apply,
    val_main_v148_apply, val_main_v145_apply, val_main_v144_apply, val_main_v149_apply, val_main_v147_apply, val_main_v146_apply,
    show idx_main_v151 (idx_main_v152 (idx_main_v155 (ix3 n j (0 : Fin 2)))) = ix2 n (2 : Fin 4) from
      funext fun a => by match a with | ⟨0, _⟩ => rfl | ⟨1, _⟩ => rfl,
    show idx_main_v153 (idx_main_v154 (idx_main_v156 (ix3 n j (0 : Fin 2)))) = ix2 j (2 : Fin 4) from
      funext fun a => by match a with | ⟨0, _⟩ => rfl | ⟨1, _⟩ => rfl,
    show idx_main_v144 (idx_main_v145 (idx_main_v148 (ix3 n j (0 : Fin 2)))) = ix2 n (0 : Fin 4) from
      funext fun a => by match a with | ⟨0, _⟩ => rfl | ⟨1, _⟩ => rfl,
    show idx_main_v146 (idx_main_v147 (idx_main_v149 (ix3 n j (0 : Fin 2)))) = ix2 j (0 : Fin 4) from
      funext fun a => by match a with | ⟨0, _⟩ => rfl | ⟨1, _⟩ => rfl,
    pbox2, tbox2, pbox0, tbox0]
  rfl

/-- The clipped side of the enclosing box along y. -/
theorem enc1 (n : Fin 14400) (j : Fin 1600) : val_main_v159 (F := Ideal) x1 x3 (ix3 n j (1 : Fin 2))
    = max k0 (max (hi (pc x1 n 1) (pc x1 n 3)) (hi (tc x3 j 1) (tc x3 j 3)) - min (lo (pc x1 n 1) (pc x1 n 3)) (lo (tc x3 j 1) (tc x3 j 3))) := by
  rw [val_main_v159_apply, val_main_call1_v1_apply, val_main_call1_v0_apply, val_main_cst_19_apply, val_main_v158_apply,
    val_main_v157_apply, val_main_v150_apply,
    val_main_v155_apply, val_main_v152_apply, val_main_v151_apply, val_main_v156_apply, val_main_v154_apply, val_main_v153_apply,
    val_main_v148_apply, val_main_v145_apply, val_main_v144_apply, val_main_v149_apply, val_main_v147_apply, val_main_v146_apply,
    show idx_main_v151 (idx_main_v152 (idx_main_v155 (ix3 n j (1 : Fin 2)))) = ix2 n (3 : Fin 4) from
      funext fun a => by match a with | ⟨0, _⟩ => rfl | ⟨1, _⟩ => rfl,
    show idx_main_v153 (idx_main_v154 (idx_main_v156 (ix3 n j (1 : Fin 2)))) = ix2 j (3 : Fin 4) from
      funext fun a => by match a with | ⟨0, _⟩ => rfl | ⟨1, _⟩ => rfl,
    show idx_main_v144 (idx_main_v145 (idx_main_v148 (ix3 n j (1 : Fin 2)))) = ix2 n (1 : Fin 4) from
      funext fun a => by match a with | ⟨0, _⟩ => rfl | ⟨1, _⟩ => rfl,
    show idx_main_v146 (idx_main_v147 (idx_main_v149 (ix3 n j (1 : Fin 2)))) = ix2 j (1 : Fin 4) from
      funext fun a => by match a with | ⟨0, _⟩ => rfl | ⟨1, _⟩ => rfl,
    pbox3, tbox3, pbox1, tbox1]
  rfl

/-- Element (n, j) of a 14400 x 1600 x 1 array folded to 14400 x 1600 sits at (n, j, 0). -/
theorem fold0 (f : S14400x1600.Idx → S14400x1600x1.Idx) (g : S14400x1600x1.Idx → S14400x1600x2.Idx) (n : Fin 14400) (j : Fin 1600)
    (k : Fin 2) (h0 : (g (f (ix2 n j)) 0).val = (n.val * 1600 + j.val) / 1600)
    (h1 : (g (f (ix2 n j)) 1).val = (n.val * 1600 + j.val) / 1 % 1600) (h2 : (g (f (ix2 n j)) 2).val = k.val) :
    g (f (ix2 n j)) = ix3 n j k := by
  funext a
  match a with
  | ⟨0, _⟩ => exact Fin.ext (h0.trans (div_row n j))
  | ⟨1, _⟩ => exact Fin.ext (h1.trans (mod_row n j))
  | ⟨2, _⟩ => exact Fin.ext h2

/-- The overlap's area. -/
theorem inter_at (n : Fin 14400) (j : Fin 1600) : val_main_v136 (F := Ideal) x1 x3 (ix2 n j) = interOf (pc x1 n) (tc x3 j) := by
  rw [val_main_v136_apply, val_main_v133_apply, val_main_v132_apply, val_main_v135_apply, val_main_v134_apply,
    fold0 idx_main_v133 idx_main_v132 n j 0 rfl rfl rfl, fold0 idx_main_v135 idx_main_v134 n j 1 rfl rfl rfl, ovl0, ovl1]
  rfl

/-- The union's area: the two areas less the overlap. -/
theorem union_at (n : Fin 14400) (j : Fin 1600) : val_main_v142 (F := Ideal) x1 x3 (ix2 n j) = unionOf (pc x1 n) (tc x3 j) := by
  rw [val_main_v142_apply, val_main_v141_apply, val_main_v139_apply, val_main_v137_apply, val_main_v140_apply, val_main_v138_apply,
    show idx_main_v137 (idx_main_v139 (ix2 n j)) = ix1 n from funext fun a => by match a with | ⟨0, _⟩ => rfl,
    show idx_main_v138 (idx_main_v140 (ix2 n j)) = ix1 j from funext fun a => by match a with | ⟨0, _⟩ => rfl,
    parea, tarea, inter_at]
  rfl

/-- The enclosing box's area. -/
theorem encl_at (n : Fin 14400) (j : Fin 1600) : val_main_v164 (F := Ideal) x1 x3 (ix2 n j) = enclOf (pc x1 n) (tc x3 j) := by
  rw [val_main_v164_apply, val_main_v161_apply, val_main_v160_apply, val_main_v163_apply, val_main_v162_apply,
    fold0 idx_main_v161 idx_main_v160 n j 0 rfl rfl rfl, fold0 idx_main_v163 idx_main_v162 n j 1 rfl rfl rfl, enc0, enc1]
  rfl

/-- The negated GIoU. -/
theorem giou_at (n : Fin 14400) (j : Fin 1600) : val_main_v168 (F := Ideal) x1 x3 (ix2 n j)
    = -(Ideal.div (interOf (pc x1 n) (tc x3 j)) (unionOf (pc x1 n) (tc x3 j))
        - Ideal.div (enclOf (pc x1 n) (tc x3 j) - unionOf (pc x1 n) (tc x3 j)) (enclOf (pc x1 n) (tc x3 j))) := by
  rw [val_main_v168_apply, val_main_v167_apply, val_main_v143_apply, val_main_v166_apply, val_main_v165_apply,
    inter_at, union_at, encl_at]
  rfl

end Pair

/-! ## The class term -/

section Cls

variable (x0 : (⟨S16x900x91, .f32⟩ : BufTy).Contents (Elt Ideal)) (x2 : (⟨S1600, .i32⟩ : BufTy).Contents (Elt Ideal))

/-- The focal feature of one logit of the flattened 14400 x 91 logits. -/
theorem feat_at (i : S14400x91.Idx) : val_main_v29 (F := Ideal) x0 i = featR (x0 (idx_main_v0 i)) := by
  simp only [val_main_v29_apply, val_main_v28_apply, val_main_v17_apply, val_main_v23_apply, val_main_v27_apply,
    val_main_v22_apply, val_main_cst_6_apply, val_main_v21_apply, val_main_v19_apply, val_main_v20_apply, val_main_cst_5_apply,
    val_main_v18_apply, val_main_cst_4_apply, val_main_v6_apply, val_main_v5_apply, val_main_cst_0_apply, val_main_v4_apply,
    val_main_v3_apply, val_main_cst_apply, val_main_v2_apply, val_main_v1_apply, val_main_v0_apply,
    val_main_v26_apply, val_main_v25_apply, val_main_v24_apply, val_main_cst_7_apply,
    val_main_v11_apply, val_main_v16_apply, val_main_v10_apply, val_main_cst_2_apply, val_main_v9_apply, val_main_v8_apply,
    val_main_cst_1_apply, val_main_v15_apply, val_main_v14_apply, val_main_v12_apply, val_main_v13_apply, val_main_cst_3_apply]
  rfl

/-- The start index of target j: its label, when the label is not negative. -/
theorem label_at (j : Fin 1600) (h : 0 ≤ (x2 (ix1 j)).toInt) : val_main_v35 (F := Ideal) x2 (ix2 j (0 : Fin 1)) = x2 (ix1 j) := by
  rw [val_main_v35_apply,
    show idx_main_v35 (ix2 j (0 : Fin 1)) = ix1 j from funext fun a => by match a with | ⟨0, _⟩ => rfl,
    val_main_v34_apply, val_main_v31_apply, val_main_v30_apply, val_main_c_apply]
  exact label_keep _ h _

/-- The gathered class term: the feature of the target's own class. -/
theorem cls_at (hid : ∀ j : Fin 1600, 0 ≤ (x2 (ix1 j)).toInt ∧ (x2 (ix1 j)).toInt < 91) (n : Fin 14400) (j : Fin 1600) :
    val_main_v36 (F := Ideal) x0 x2 (ix2 n j) = val_main_v29 (F := Ideal) x0 (ix2 n (colOf x2 hid j)) := by
  unfold val_main_v36
  rw [gather_col]
  congr 1
  funext a
  match a with
  | ⟨0, _⟩ => rfl
  | ⟨1, _⟩ =>
    refine Fin.ext ?_
    show min (val_main_v35 (F := Ideal) x2 (ix2 j (0 : Fin 1))).toInt.toNat 90 = (x2 (ix1 j)).toInt.toNat
    rw [label_at x2 j (hid j).1]
    have := hid j
    omega

end Cls

/-! ## The result -/

section Result

variable (x0 : (⟨S16x900x91, .f32⟩ : BufTy).Contents (Elt Ideal)) (x1 : (⟨S16x900x4, .f32⟩ : BufTy).Contents (Elt Ideal))
  (x2 : (⟨S1600, .i32⟩ : BufTy).Contents (Elt Ideal)) (x3 : (⟨S1600x4, .f32⟩ : BufTy).Contents (Elt Ideal))

/-- The sum of the three tables at (n, j), each with weight one. -/
theorem cost_at (hid : ∀ j : Fin 1600, 0 ≤ (x2 (ix1 j)).toInt ∧ (x2 (ix1 j)).toInt < 91) (n : Fin 14400) (j : Fin 1600) :
    val_main_v176 (F := Ideal) x0 x1 x2 x3 (ix2 n j)
      = costOf (pc x1 n) (tc x3 j) (featR (x0 (idx_main_v0 (ix2 n (colOf x2 hid j))))) := by
  rw [val_main_v176_apply, val_main_v173_apply, val_main_v170_apply, val_main_v172_apply, val_main_v175_apply,
    val_main_v169_apply, val_main_cst_20_apply, val_main_v171_apply, val_main_cst_21_apply, val_main_v174_apply,
    val_main_cst_22_apply, l1_at, cls_at x0 x2 hid, feat_at, giou_at]
  rfl

/-- Row b * 900 + q of the flattened predicted boxes is box (b, q). -/
theorem pc_row (b : Fin 16) (q : Fin 900) : pc x1 (row b q) = fun k => x1 (ix3 b q k) := by
  funext k
  show val_main_v7 (F := Ideal) x1 (ix2 (row b q) k) = _
  rw [val_main_v7_apply, idx7_row]

/-- THE REFERENCE'S RESULT, index by index. -/
theorem ref_eq (x0 : (⟨S16x900x91, .f32⟩ : BufTy).Contents (Elt Ideal)) (x1 : (⟨S16x900x4, .f32⟩ : BufTy).Contents (Elt Ideal))
    (x2 : (⟨S1600, .i32⟩ : BufTy).Contents (Elt Ideal)) (x3 : (⟨S1600x4, .f32⟩ : BufTy).Contents (Elt Ideal))
    (hid : ∀ j : Fin 1600, 0 ≤ (x2 (ix1 j)).toInt ∧ (x2 (ix1 j)).toInt < 91) :
    Cert.ReferenceIdeal.Read.val_main_v177 (F := Ideal) x0 x1 x2 x3 = Cert.CostSpec.refRes x0 x1 (Cert.CostSpec.colOf x2 hid) x3 := by
  funext i
  obtain ⟨b, q, j, rfl⟩ : ∃ (b : Fin 16) (q : Fin 900) (j : Fin 1600), i = ix3 b q j := ⟨i 0, i 1, i 2, eq_ix3 i⟩
  rw [val_main_v177_apply, idx177, cost_at x0 x1 x2 x3 hid, pc_row, idx0_row, costOf_eq]
  rfl

end Result

end Cert.ReferenceIdeal.RefValue

end
-- ==== Proof.CostLaw.lean ====
/-
  The algebraic law that joins the two spellings of one box pair's cost on the extended reals.

  For real box data with a target of non-negative extent, everything up to the two quotients is real
  arithmetic: the L1 sums agree, the corner-box areas are w * h, the intersections are the same term, and
  the enclosing sides agree because max a b + min a b = a + b and the hull of two intervals is at least as
  long as either, so the clip at 0 does not bind. The two forms of GIoU,
    (iou - 1) + union / enclosing   and   iou - (enclosing - union) / enclosing,
  then agree at every corner of the quotient: the enclosing area vanishes only where the intersection does.
-/
import proofs.«417686_j11175504904384_3_alg».proof.Proof.CostSpec
import Mathlib.Data.EReal.Inv
import Mathlib.Tactic.Ring
import Mathlib.Tactic.Linarith
import Mathlib.Tactic.FieldSimp

noncomputable section

namespace Cert.CostSpec

open Idealize.ShloMosaic

/-! ## The literals -/

theorem k0_eq : k0 = 0 := by
  simp [Ideal.ofBits, Ideal.ieee]

theorem k1_eq : k1 = 1 := by
  simp [Ideal.ofBits, Ideal.ieee, -EReal.coe_mul]; norm_num

theorem khalf_eq : khalf = ((1 / 2 : ℝ) : EReal) := by
  simp [Ideal.ofBits, Ideal.ieee, -EReal.coe_mul]; norm_num

/-! ## Coercions through max and min -/

theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem coe_min' (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-! ## Sides, absolute values and clips of real data -/

theorem lo_coe (c s : ℝ) : lo (c : EReal) (s : EReal) = ((c - s / 2 : ℝ) : EReal) := by
  unfold lo
  rw [khalf_eq, ← EReal.coe_mul, ← EReal.coe_sub]
  congr 1; ring

theorem hi_coe (c s : ℝ) : hi (c : EReal) (s : EReal) = ((c + s / 2 : ℝ) : EReal) := by
  unfold hi
  rw [khalf_eq, ← EReal.coe_mul, ← EReal.coe_add]
  congr 1; ring

theorem absE_sub_coe (x y : ℝ) :
    absE ((x : EReal) - (y : EReal)) = ((max (x - y) (-(x - y)) : ℝ) : EReal) := by
  unfold absE
  rw [← EReal.coe_sub, ← EReal.coe_neg, coe_max']

theorem clip_coe (x : ℝ) : max k0 (x : EReal) = ((max 0 x : ℝ) : EReal) := by
  rw [k0_eq, ← EReal.coe_zero, coe_max']

/-- The overlap of two intervals given by centre and extent (negative when they are apart). -/
def ov (c s tc ts : ℝ) : ℝ := min (c + s / 2) (tc + ts / 2) - max (c - s / 2) (tc - ts / 2)

theorem ov_coe (c s tc ts : ℝ) :
    min (hi (c : EReal) (s : EReal)) (hi (tc : EReal) (ts : EReal))
        - max (lo (c : EReal) (s : EReal)) (lo (tc : EReal) (ts : EReal))
      = ((ov c s tc ts : ℝ) : EReal) := by
  rw [hi_coe, hi_coe, lo_coe, lo_coe, coe_min', coe_max', ← EReal.coe_sub]
  rfl

theorem side_coe (c s : ℝ) : hi (c : EReal) (s : EReal) - lo (c : EReal) (s : EReal) = (s : EReal) := by
  rw [hi_coe, lo_coe, ← EReal.coe_sub]
  congr 1; ring

/-- The hull of two intervals: its length is the sum of the lengths minus the overlap, and it is at least
    the second interval's length, so clipping it at 0 changes nothing. -/
theorem hull_real (c s tc ts : ℝ) (hts : 0 ≤ ts) :
    max 0 (max (c + s / 2) (tc + ts / 2) - min (c - s / 2) (tc - ts / 2)) = (s + ts) - ov c s tc ts := by
  unfold ov
  have h1 := max_add_min (c + s / 2) (tc + ts / 2)
  have h2 := max_add_min (c - s / 2) (tc - ts / 2)
  have h3 : tc + ts / 2 ≤ max (c + s / 2) (tc + ts / 2) := le_max_right _ _
  have h4 : min (c - s / 2) (tc - ts / 2) ≤ tc - ts / 2 := min_le_right _ _
  rw [max_eq_right (by linarith)]
  linarith

theorem hull_coe (c s tc ts : ℝ) (hts : 0 ≤ ts) :
    max k0 (max (hi (c : EReal) (s : EReal)) (hi (tc : EReal) (ts : EReal))
        - min (lo (c : EReal) (s : EReal)) (lo (tc : EReal) (ts : EReal)))
      = (((s + ts) - ov c s tc ts : ℝ) : EReal) := by
  rw [hi_coe, hi_coe, lo_coe, lo_coe, coe_min', coe_max', ← EReal.coe_sub, clip_coe, hull_real c s tc ts hts]

/-- Where the hull has length 0 the clipped overlap is 0. -/
theorem clip_ov_eq_zero (c s tc ts : ℝ) (hts : 0 ≤ ts) (h : (s + ts) - ov c s tc ts = 0) :
    max 0 (ov c s tc ts) = 0 := by
  have hh := hull_real c s tc ts hts
  rw [h] at hh
  have h3 : tc + ts / 2 ≤ max (c + s / 2) (tc + ts / 2) := le_max_right _ _
  have h4 : min (c - s / 2) (tc - ts / 2) ≤ tc - ts / 2 := min_le_right _ _
  have h5 : c + s / 2 ≤ max (c + s / 2) (tc + ts / 2) := le_max_left _ _
  have h6 : min (c - s / 2) (tc - ts / 2) ≤ c - s / 2 := min_le_left _ _
  have h7 : max (c + s / 2) (tc + ts / 2) - min (c - s / 2) (tc - ts / 2) ≤ 0 := by
    have := le_max_right 0 (max (c + s / 2) (tc + ts / 2) - min (c - s / 2) (tc - ts / 2))
    linarith
  apply max_eq_left
  linarith

/-! ## The quotient on real data -/

theorem div_coe_of_ne (a b : ℝ) (hb : b ≠ 0) :
    Ideal.div (a : EReal) (b : EReal) = ((a / b : ℝ) : EReal) := by
  unfold Ideal.div
  rw [if_neg (by exact_mod_cast hb), div_eq_mul_inv, EReal.coe_mul, EReal.coe_inv]

theorem div_coe_of_eq (a b : ℝ) (hb : b = 0) :
    Ideal.div (a : EReal) (b : EReal) = if 0 < a then ⊤ else ⊥ := by
  unfold Ideal.div
  subst hb
  simp

/-! ## The two forms of GIoU -/

theorem giou_forms (I U A : ℝ) (hI : 0 ≤ I) (h0 : A = 0 → I = 0) :
    (Ideal.div (I : EReal) (U : EReal) - 1) + Ideal.div (U : EReal) (A : EReal)
      = Ideal.div (I : EReal) (U : EReal) - Ideal.div ((A - U : ℝ) : EReal) (A : EReal) := by
  by_cases hA : A = 0
  · have hI0 := h0 hA
    rw [div_coe_of_eq U A hA, div_coe_of_eq (A - U) A hA]
    rcases lt_trichotomy U 0 with hU | hU | hU
    · rw [div_coe_of_ne I U hU.ne, if_neg (by linarith : ¬ 0 < U), if_pos (by linarith : 0 < A - U)]
      rw [EReal.add_bot, EReal.sub_top]
    · rw [div_coe_of_eq I U hU, if_neg (by linarith : ¬ 0 < I), if_neg (by linarith : ¬ 0 < U),
        if_neg (by linarith : ¬ 0 < A - U)]
      rw [EReal.add_bot, EReal.bot_sub]
    · rw [div_coe_of_ne I U hU.ne', if_pos hU, if_neg (by linarith : ¬ 0 < A - U)]
      rw [← EReal.coe_one, ← EReal.coe_sub, EReal.coe_add_top, EReal.coe_sub_bot]
  · rw [div_coe_of_ne U A hA, div_coe_of_ne (A - U) A hA]
    by_cases hU : U = 0
    · rw [div_coe_of_eq I U hU]
      split
      · rw [← EReal.coe_one, EReal.top_sub_coe, EReal.top_add_coe, EReal.top_sub_coe]
      · rw [EReal.bot_sub, EReal.bot_add, EReal.bot_sub]
    · rw [div_coe_of_ne I U hU, ← EReal.coe_one, ← EReal.coe_sub, ← EReal.coe_add, ← EReal.coe_sub]
      congr 1
      field_simp
      ring

/-! ## The pair's cost -/

theorem pairK_eq_pairR (cx cy w h tcx tcy tw th : ℝ) (htw : 0 ≤ tw) (hth : 0 ≤ th) (cls : EReal) :
    pairK (cx : EReal) cy w h tcx tcy tw th cls = pairR (cx : EReal) cy w h tcx tcy tw th cls := by
  unfold pairK pairKraw pairR
  simp only [ov_coe, hull_coe _ _ _ _ htw, hull_coe _ _ _ _ hth, side_coe, absE_sub_coe, clip_coe]
  simp only [← EReal.coe_add, ← EReal.coe_mul, ← EReal.coe_sub]
  rw [k0_eq, k1_eq, one_mul, one_mul, one_mul, zero_add]
  have hI : 0 ≤ max 0 (ov cx w tcx tw) * max 0 (ov cy h tcy th) :=
    mul_nonneg (le_max_left _ _) (le_max_left _ _)
  have h0 : (w + tw - ov cx w tcx tw) * (h + th - ov cy h tcy th) = 0 →
      max 0 (ov cx w tcx tw) * max 0 (ov cy h tcy th) = 0 := by
    intro hz
    rcases mul_eq_zero.1 hz with hz | hz
    · rw [clip_ov_eq_zero _ _ _ _ htw hz, zero_mul]
    · rw [clip_ov_eq_zero _ _ _ _ hth hz, mul_zero]
  rw [giou_forms _ _ _ hI h0, sub_eq_add_neg]

end Cert.CostSpec

end
-- ==== Proof.CostArrays.lean ====
/-
  From the law of one pair of boxes to the equality of the two whole result arrays.

  Three facts are proved here.
   * The focal class feature of a finite logit is the same in both spellings: the logistic of x is by definition
     1 / (1 + exp (-x)); the literals are 0, 1 and 2; on the extended reals 0 - a = -a; and a power with exponent 2
     of a finite base is the product of the base with itself. After these rewrites the two spellings are one term,
     the logarithms left untouched.
   * A sum over the 91 classes against the 0/1 column of a label in [0, 91) selects the one class of that label:
     the clamp to [0, 90] leaves such a label alone, so the column is 1 at the label and 0 elsewhere.
   * At every index of the result the kernel's entry is the reference's entry: the eight box entries are finite,
     the target's extents are not negative, so the pair law applies, and the class term is the selected feature.
-/
import proofs.«417686_j11175504904384_3_alg».proof.Proof.CostSpec
import Idealize.ShloMosaic.Lib.IdealHost
import Mathlib.Algebra.BigOperators.Group.Finset.Basic
import Mathlib.Analysis.SpecialFunctions.Pow.Real
import Mathlib.Data.EReal.Basic
import Mathlib.Data.EReal.Operations

noncomputable section

open scoped BigOperators

namespace Cert.CostSpec

open Idealize.ShloMosaic Idealize.ShloMosaic.ValueIdx

namespace Arrays

/-! ## The three literals the class feature needs -/

theorem k0_eq : k0 = 0 := Ideal.ofBits_zero_f32

theorem k1_eq : k1 = 1 := Ideal.ofBits_one_f32

/-- The word 0x40000000 denotes the real 2. -/
theorem k2_eq : k2 = ((2 : ℝ) : EReal) := by
  simp [Ideal.ofBits, Ideal.ieee, -EReal.coe_mul]; norm_num

/-! ## The class feature -/

/-- A power with exponent 2 of a finite base is the base times itself. -/
theorem pow_two_coe (r : ℝ) : Ideal.pow (r : EReal) ((2 : ℝ) : EReal) = (r : EReal) * (r : EReal) := by
  rw [Ideal.pow_coe_coe, ← EReal.coe_mul]
  congr 1
  show r ^ (2 : ℝ) = r * r
  rw [Real.rpow_two, sq]

end Arrays

open Arrays

theorem featK_eq_featR (x : ℝ) : featK (x : EReal) = featR (x : EReal) := by
  have hD : Ideal.div k1 (k1 + Ideal.exp (-(x : EReal))) = Ideal.logistic (x : EReal) := by
    rw [k1_eq]; rfl
  unfold featK featR
  rw [hD, Ideal.logistic_coe]
  have h1 : ∀ p : ℝ, (1 : EReal) - (p : EReal) = ((1 - p : ℝ) : EReal) := fun p => by
    rw [EReal.coe_sub, EReal.coe_one]
  rw [k1_eq, k0_eq, k2_eq, h1, pow_two_coe, pow_two_coe]
  simp only [zero_sub]

/-! ## The class sum -/

theorem cls_select (f : Fin 91 → EReal) (id : BitVec 32) (h0 : 0 ≤ id.toInt) (h1 : id.toInt < 91) :
    ∑ c : Fin 91, f c * oh id c = f ⟨id.toInt.toNat, by omega⟩ := by
  have hm : min 90 (max 0 id.toInt) = id.toInt := by omega
  rw [Finset.sum_eq_single (⟨id.toInt.toNat, by omega⟩ : Fin 91)]
  · unfold oh
    rw [hm, if_pos (by show ((id.toInt.toNat : ℕ) : ℤ) = id.toInt; omega), mul_one]
  · intro c _ hc
    unfold oh
    rw [hm, if_neg, mul_zero]
    intro e
    apply hc
    apply Fin.ext
    show c.val = id.toInt.toNat
    omega
  · intro h
    exact absurd (Finset.mem_univ _) h

/-! ## The whole arrays -/

/-- One entry of the result: batch b, query q, target j. -/
theorem Arrays.kernelAt_eq_refAt (A0 : SLogits.Idx → EReal) (A1 : SBoxes.Idx → EReal) (A2 : SIds.Idx → BitVec 32)
    (A3 : STgt.Idx → EReal)
    (hpair : ∀ (cx cy w h tcx tcy tw th : ℝ), 0 ≤ tw → 0 ≤ th → ∀ cls : EReal,
      pairK (cx : EReal) cy w h tcx tcy tw th cls = pairR (cx : EReal) cy w h tcx tcy tw th cls)
    (h0 : ∀ i, ∃ r : ℝ, A0 i = (r : EReal)) (h1 : ∀ i, ∃ r : ℝ, A1 i = (r : EReal))
    (h3 : ∀ i, ∃ r : ℝ, A3 i = (r : EReal))
    (hid : ∀ j : Fin 1600, 0 ≤ (A2 (ix1 j)).toInt ∧ (A2 (ix1 j)).toInt < 91)
    (hpos : ∀ j : Fin 1600, (0 : EReal) ≤ A3 (ix2 j (2 : Fin 4)) ∧ (0 : EReal) ≤ A3 (ix2 j (3 : Fin 4)))
    (b : Fin 16) (q : Fin 900) (j : Fin 1600) :
    kernelAt A0 A1 A2 A3 b q j = refAt A0 A1 (colOf A2 hid) A3 b q j := by
  unfold kernelAt refAt
  obtain ⟨cx, hcx⟩ := h1 (ix3 b q (0 : Fin 4))
  obtain ⟨cy, hcy⟩ := h1 (ix3 b q (1 : Fin 4))
  obtain ⟨w, hw⟩ := h1 (ix3 b q (2 : Fin 4))
  obtain ⟨h, hh⟩ := h1 (ix3 b q (3 : Fin 4))
  obtain ⟨tcx, htcx⟩ := h3 (ix2 j (0 : Fin 4))
  obtain ⟨tcy, htcy⟩ := h3 (ix2 j (1 : Fin 4))
  obtain ⟨tw, htw⟩ := h3 (ix2 j (2 : Fin 4))
  obtain ⟨th, hth⟩ := h3 (ix2 j (3 : Fin 4))
  have hp := hpos j
  rw [htw, hth] at hp
  have htw0 : 0 ≤ tw := EReal.coe_nonneg.mp hp.1
  have hth0 : 0 ≤ th := EReal.coe_nonneg.mp hp.2
  have hc : ∑ c : Fin 91, featK (A0 (ix3 b q c)) * oh (A2 (ix1 j)) c
      = featR (A0 (ix3 b q (colOf A2 hid j))) := by
    refine (cls_select (fun c => featK (A0 (ix3 b q c))) (A2 (ix1 j)) (hid j).1 (hid j).2).trans ?_
    obtain ⟨r, hr⟩ := h0 (ix3 b q (colOf A2 hid j))
    show featK (A0 (ix3 b q (colOf A2 hid j))) = _
    rw [hr, featK_eq_featR]
  rw [hc, hcx, hcy, hw, hh, htcx, htcy, htw, hth]
  exact hpair cx cy w h tcx tcy tw th htw0 hth0 _

theorem kernelRes_eq_refRes (A0 : SLogits.Idx → EReal) (A1 : SBoxes.Idx → EReal) (A2 : SIds.Idx → BitVec 32)
    (A3 : STgt.Idx → EReal)
    (hpair : ∀ (cx cy w h tcx tcy tw th : ℝ), 0 ≤ tw → 0 ≤ th → ∀ cls : EReal,
      pairK (cx : EReal) cy w h tcx tcy tw th cls = pairR (cx : EReal) cy w h tcx tcy tw th cls)
    (h0 : ∀ i, ∃ r : ℝ, A0 i = (r : EReal)) (h1 : ∀ i, ∃ r : ℝ, A1 i = (r : EReal))
    (h3 : ∀ i, ∃ r : ℝ, A3 i = (r : EReal))
    (hid : ∀ j : Fin 1600, 0 ≤ (A2 (ix1 j)).toInt ∧ (A2 (ix1 j)).toInt < 91)
    (hpos : ∀ j : Fin 1600, (0 : EReal) ≤ A3 (ix2 j (2 : Fin 4)) ∧ (0 : EReal) ≤ A3 (ix2 j (3 : Fin 4))) :
    kernelRes A0 A1 A2 A3 = refRes A0 A1 (colOf A2 hid) A3 := by
  funext i
  exact Arrays.kernelAt_eq_refAt A0 A1 A2 A3 hpair h0 h1 h3 hid hpos (i 0) (i 1) (i 2)

end Cert.CostSpec

end
-- ==== Proof.PreFacts.lean ====
/-
  What the precondition `finite_inputs` says of the four argument arrays, read back from its printed form: the
  function is the conjunction of five "all elements" reductions, so its value 1 gives, element by element,
  |a0| < +∞, |a1| < +∞, |a3| < +∞ (hence every entry of the three float arrays is a real number), 0 ≤ a2 < 91 read
  signed, and 0 ≤ a3[j, 2], 0 ≤ a3[j, 3].
-/
import proofs.«417686_j11175504904384_3_alg».proof.Pre_finite_inputs
import Idealize.ShloMosaic.PureOps.Ideal
import Idealize.ShloMosaic.Lib.ValueIdx
import Idealize.ShloMosaic.Lib.ReduceAll
import Idealize.ShloMosaic.Lib.StableHlo.Predicate

namespace Cert.PreFacts

open Idealize.ShloMosaic Idealize.ShloMosaic.ValueIdx
open Cert.Pre_finite_inputs

/-- The rank-0 shape has one index. -/
instance subsingleton_S_ : Subsingleton S_.Idx := ⟨fun a b => funext fun d => d.elim0⟩

/-- The pattern 0x7F800000 is +∞. -/
theorem inf_bits : Ideal.ofBits .f32 0x7F800000#32 = (⊤ : EReal) := by
  simp [Ideal.ofBits, Ideal.ieee]

/-- The pattern 0 is the real 0. -/
theorem zero_bits : Ideal.ofBits .f32 0x00000000#32 = (0 : EReal) := by
  simp [Ideal.ofBits, Ideal.ieee]

theorem ofBool_eq_one (b : Bool) : BitVec.ofBool b = 1#1 ↔ b = true := by cases b <;> decide

/-- An extended real whose absolute value max x (−x) is below +∞ is a real. -/
theorem real_of_abs_lt_top (x : EReal) (h : Ideal.cmp .olt (max x (-x)) (⊤ : EReal) = 1#1) : ∃ r : ℝ, x = (r : EReal) := by
  unfold Ideal.cmp at h
  rw [ofBool_eq_one, decide_eq_true_eq] at h
  induction x using EReal.rec with
  | bot => simp at h
  | coe r => exact ⟨r, rfl⟩
  | top => simp at h

/-- One element of the "|x| < +∞" mask being 1 says that element is real. -/
theorem real_of_mask {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  exact real_of_abs_lt_top _ h'

/-- One element of the "x ≥ 0" mask being 1 says that element is nonnegative. -/
theorem nonneg_of_mask {s : Shape} (x : FVec Ideal s .f32) (hb : S_.BroadcastsInDim s (![] : Fin 0 → Fin s.rank)) (i : s.Idx)
    (h : cmpf .oge x (broadcastInDim s ![] hb (constant S_ .f32 0x00000000#32)) i = 1#1) :
    (0 : EReal) ≤ x i := by
  have h' : Ideal.cmp .oge (x i) (Ideal.ofBits .f32 0x00000000#32) = 1#1 := h
  rw [zero_bits] at h'
  unfold Ideal.cmp at h'
  rw [ofBool_eq_one, decide_eq_true_eq] at h'
  exact h'

/-- One element of the "0 ≤ w ∧ w < 91" mask being 1 bounds the word read signed. -/
theorem range_of_mask (x : IVec S1600 32) (hb : S_.BroadcastsInDim S1600 (![] : Fin 0 → Fin S1600.rank)) (i : S1600.Idx)
    (h : andi (cmpi .sge x (broadcastInDim S1600 ![] hb (constantI S_ 32 0#32)))
          (cmpi .slt x (broadcastInDim S1600 ![] hb (constantI S_ 32 91#32))) i = 1#1) :
    0 ≤ (x i).toInt ∧ (x i).toInt < 91 := by
  have h' : IntOp.andi (IntOp.cmpi .sge (x i) 0#32) (IntOp.cmpi .slt (x i) 91#32) = 1#1 := h
  obtain ⟨h0, h1⟩ := IntOp.andi_eq_one.1 h'
  rw [IntOp.cmpi_sge] at h0
  rw [IntOp.cmpi_slt] at h1
  exact ⟨h0, h1⟩

/-- The [0:1600, 2:4] slice read at (j, c) is the array at (j, 2 + c). -/
theorem slice_read {α : Type} (x : S1600x4.Idx → α) (hs : S1600x4.Slices ![0, 2] S1600x2) (j : Fin 1600) (c : Fin 2) (c' : Fin 4)
    (hc : c'.val = 2 + c.val) : extractStridedSlice S1600x2 ![0, 2] x hs (ix2 j c) = x (ix2 j c') := by
  unfold extractStridedSlice
  refine congrArg x (funext fun a => Fin.ext ?_)
  match a with
  | ⟨0, _⟩ => show 0 + j.val = j.val; omega
  | ⟨1, _⟩ => show 2 + c.val = c'.val; omega

/-- The precondition, read back: the three float arrays hold reals, the labels lie in [0, 91), and columns 2 and 3
    of the fourth array are nonnegative. -/
theorem of_pre [Cert.Pre_finite_inputs.Facts]
    (a0 : FVec Ideal Cert.Pre_finite_inputs.S16x900x91 .f32) (a1 : FVec Ideal Cert.Pre_finite_inputs.S16x900x4 .f32)
    (a2 : IVec Cert.Pre_finite_inputs.S1600 32) (a3 : FVec Ideal Cert.Pre_finite_inputs.S1600x4 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a3 i = (r : EReal))
    ∧ (∀ j : Fin 1600, 0 ≤ (a2 (ix1 j)).toInt ∧ (a2 (ix1 j)).toInt < 91)
    ∧ (∀ j : Fin 1600, (0 : EReal) ≤ a3 (ix2 j (2 : Fin 4)) ∧ (0 : EReal) ≤ a3 (ix2 j (3 : Fin 4))) := by
  have h0 := congrFun h ix0
  dsimp only [fn, fn_part1] at h0
  obtain ⟨h0, hE⟩ := IntOp.andi_eq_one.1 h0
  obtain ⟨h0, hD⟩ := IntOp.andi_eq_one.1 h0
  obtain ⟨h0, hC⟩ := IntOp.andi_eq_one.1 h0
  obtain ⟨hA, hB⟩ := IntOp.andi_eq_one.1 h0
  refine ⟨fun i => real_of_mask a0 _ i (Host.reduce_andi_all _ _ _ _ _ hA i),
    fun i => real_of_mask a1 _ i (Host.reduce_andi_all _ _ _ _ _ hB i),
    fun i => real_of_mask a3 _ i (Host.reduce_andi_all _ _ _ _ _ hC i),
    fun j => range_of_mask a2 _ (ix1 j) (Host.reduce_andi_all _ _ _ _ _ hD (ix1 j)),
    fun j => ⟨?_, ?_⟩⟩
  · have := nonneg_of_mask _ _ (ix2 j (0 : Fin 2)) (Host.reduce_andi_all _ _ _ _ _ hE (ix2 j (0 : Fin 2)))
    rwa [slice_read a3 _ j 0 2 rfl] at this
  · have := nonneg_of_mask _ _ (ix2 j (1 : Fin 2)) (Host.reduce_andi_all _ _ _ _ _ hE (ix2 j (1 : Fin 2)))
    rwa [slice_read a3 _ j 1 3 rfl] at this

end Cert.PreFacts
-- ==== Proof.lean ====
/-
  The five claims of the matching-cost certificate.

  Both programs compute, for each of 16 * 900 queries and 1600 targets, the L1 distance of the predicted and the
  target box, plus the focal class cost of the target's label, minus the generalized IoU of the two boxes.
  The kernel selects the label's class cost by a product with a 0/1 table of the label clamped to [0, 90] and
  computes the enclosing box by the hull identity (widths added, overlap subtracted, no clip); the reference indexes
  the class cost with the label (a negative label counts from the end) and clips the enclosing box's sides at 0.
  Under the precondition — float inputs finite, labels in [0, 91), target widths and heights nonnegative — the two
  are the same extended real at every index: the label is its own clamp and its own index; the enclosing side is at
  least the target's, so the clip does not bind; and where the enclosing area is 0 so is the intersection, which
  is the one corner where the two spellings of GIoU over a zero divisor could part.

  The frames of the two kernel programs are proved from the pipeline's launch theorem over the body's run (one
  text at any reading of the floats); the reference's frame is its run with the result dropped; the ideal pass
  rewrote nothing, so there is nothing to preserve.
-/
import proofs.«417686_j11175504904384_3_alg».proof.Defs
import proofs.«417686_j11175504904384_3_alg».proof.Proof.Gen.Kernel
import proofs.«417686_j11175504904384_3_alg».proof.Proof.Gen.KernelIdeal
import proofs.«417686_j11175504904384_3_alg».proof.Proof.Gen.ReferenceIdeal
import proofs.«417686_j11175504904384_3_alg».proof.Proof.Gen.Pre_finite_inputs
import proofs.«417686_j11175504904384_3_alg».proof.Proof.KFrameBits
import proofs.«417686_j11175504904384_3_alg».proof.Proof.KValue
import proofs.«417686_j11175504904384_3_alg».proof.Proof.RefValue
import proofs.«417686_j11175504904384_3_alg».proof.Proof.CostLaw
import proofs.«417686_j11175504904384_3_alg».proof.Proof.CostArrays
import proofs.«417686_j11175504904384_3_alg».proof.Proof.PreFacts
import Idealize.ShloMosaic.Adequacy
import Idealize.ShloMosaic.Init

noncomputable section

namespace Cert.Proof

open Idealize.ShloMosaic Idealize.SL.Sem

/-- The word-level kernel runs to the end and leaves its arguments unchanged. -/
theorem frame_kernel : Cert.frame_Kernel := fun m ρ _ => Cert.Kernel.Hand.frame (F := Bits) m ρ

/-- So does its reading over the extended reals. -/
theorem frame_kernelIdeal : Cert.frame_KernelIdeal := fun m ρ _ => Cert.KernelIdeal.Hand.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the cost matrix of the arguments: the kernel's
    by its run, the reference's by its run read stage by stage, and the two matrices are equal under the
    precondition's facts. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h3, hid, hpos⟩ := Cert.PreFacts.of_pre _ _ _ _ (hpre c)
  rw [Cert.ReferenceIdeal.Read.val_main_v177_eq, (hagree c).1, (hagree c).2.1, (hagree c).2.2.1, (hagree c).2.2.2,
    Cert.ReferenceIdeal.RefValue.ref_eq _ _ _ _ hid]
  exact (Cert.CostSpec.kernelRes_eq_refRes _ _ _ _ Cert.CostSpec.pairK_eq_pairR h0 h1 h3 hid hpos).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
